-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S640000 32) (main_v13 : IVec S_ 1) (main_v15 : IVec S640000 1) (main_c_5 : IVec S_ 1) : IVec S_ 1 :=
  let main_v16 : IVec S_ 1 := (fun x v => Host.reduce IntOp.andi x v reducesTo_S640000_S_d0 h_S_) main_v15 main_c_5
  let main_v17 : IVec S_ 1 := andi main_v13 main_v16
  let main_c_6 : IVec S_ 32 := constantI S_ 32 10000#32
  let main_v18 : IVec S640000 32 := broadcastInDim S640000 ![] bcast_S_S640000 main_c_6
  let main_v19 : IVec S640000 1 := cmpi .slt main_arg1 main_v18
  let main_c_7 : IVec S_ 1 := constantI S_ 1 1#1
  let main_v20 : IVec S_ 1 := (fun x v => Host.reduce IntOp.andi x v reducesTo_S640000_S_d0 h_S_) main_v19 main_c_7
  let main_v21 : IVec S_ 1 := andi main_v17 main_v20
  main_v21

def fn {F : FTy → Type} [FloatOps F] (main_arg0 : FVec F S10000x128 .f32) (main_arg1 : IVec S640000 32) (main_arg2 : IVec S640000 32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg1 main_v14
  let main_c_5 : IVec S_ 1 := constantI S_ 1 1#1
  fn_part1 (F := F) main_arg1 main_v13 main_v15 main_c_5
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S10112x128 : Shape := ⟨2, ![10112, 128]⟩
abbrev S128x10112 : Shape := ⟨2, ![128, 10112]⟩
abbrev S2x128x10112 : Shape := ⟨3, ![2, 128, 10112]⟩
abbrev S256 : Shape := ⟨1, ![256]⟩
abbrev S1x128x10112 : Shape := ⟨3, ![1, 128, 10112]⟩
abbrev S10112x1 : Shape := ⟨2, ![10112, 1]⟩
abbrev S1x256 : Shape := ⟨2, ![1, 256]⟩
abbrev S10112x256 : Shape := ⟨2, ![10112, 256]⟩
abbrev S128x256 : Shape := ⟨2, ![128, 256]⟩
abbrev S1x10112 : Shape := ⟨2, ![1, 10112]⟩
abbrev S256x1 : Shape := ⟨2, ![256, 1]⟩
abbrev S256x10112 : Shape := ⟨2, ![256, 10112]⟩
abbrev S1x128 : Shape := ⟨2, ![1, 128]⟩

abbrev nBuf : Space → Nat
  | .hbm => 23
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S_, .f32⟩
  | .hbm, ⟨7, _⟩ => ⟨S10112x128, .f32⟩
  | .hbm, ⟨8, _⟩ => ⟨S128x10112, .f32⟩
  | .hbm, ⟨9, _⟩ => ⟨S128x10112, .bf16⟩
  | .hbm, ⟨10, _⟩ => ⟨S128x128, .f32⟩
  | .hbm, ⟨11, _⟩ => ⟨S128x128, .bf16⟩
  | .hbm, ⟨12, _⟩ => ⟨S2x128x10112, .f32⟩
  | .hbm, ⟨13, _⟩ => ⟨S1x128x10112, .f32⟩
  | .hbm, ⟨14, _⟩ => ⟨S128x10112, .f32⟩
  | .hbm, ⟨15, _⟩ => ⟨S1x128x10112, .f32⟩
  | .hbm, ⟨16, _⟩ => ⟨S128x10112, .f32⟩
  | .hbm, ⟨17, _⟩ => ⟨S128x10112, .f32⟩
  | .hbm, ⟨18, _⟩ => ⟨S10112x128, .f32⟩
  | .hbm, ⟨19, _⟩ => ⟨S1x128, .f32⟩
  | .hbm, ⟨20, _⟩ => ⟨S10112x128, .f32⟩
  | .hbm, ⟨21, _⟩ => ⟨S10112x128, .f32⟩
  | .hbm, ⟨22, _⟩ => ⟨S10000x128, .f32⟩
  | .local _ .vmem, ⟨0, _⟩ => ⟨S256, .i32⟩
  | .local _ .vmem, ⟨1, _⟩ => ⟨S256, .i32⟩
  | .local _ .vmem, ⟨2, _⟩ => ⟨S256, .i32⟩
  | .local _ .vmem, ⟨3, _⟩ => ⟨S256, .i32⟩
  | .local _ .vmem, ⟨4, _⟩ => ⟨S128x10112, .bf16⟩
  | .local _ .vmem, ⟨5, _⟩ => ⟨S128x128, .bf16⟩
  | .local _ .vmem, ⟨6, _⟩ => ⟨S1x128x10112, .f32⟩
  | .local _ .vmem, ⟨7, _⟩ => ⟨S128x10112, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![2, 1250], ![false, false]⟩

def k0_cond2 (i : grid0.Coords) : BitVec 1 :=
  let arg1 : BitVec 32 := BitVec.ofNat 32 (i 1).val
  let c1249_i32 : BitVec 32 := 1249#32
  let v31 : BitVec 1 := Scalar.cmpi .eq arg1 c1249_i32
  let v32 : BitVec 32 := Scalar.extui v31
  let c0_i32_9 : BitVec 32 := 0#32
  let v33 : BitVec 1 := Scalar.cmpi .ne v32 c0_i32_9
  v33

def cc0_transform_0 (i : grid0.Coords) : Fin 1 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x10112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x10112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  pads_S10000x128_S10112x128_01120_000 : S10000x128.Pads (![0, 0] : Fin 2 → Nat) ![112, 0] ![0, 0] S10112x128
  h_S_ : 0 < S_.numel
  transposes_S10112x128_S128x10112_1_0 : S10112x128.Transposes [1, 0] S128x10112
  bitsLt_bf16_f32 : FTy.bits .bf16 < FTy.bits .f32
  transposes_S128x128_S128x128_1_0 : S128x128.Transposes [1, 0] S128x128
  inb_S128x10112_S128x10112_0_0 : ∀ a, (![0, 0] : Fin 2 → Nat) a + S128x10112.size a ≤ S128x10112.size a
  h_S128x10112 : 0 < S128x10112.numel
  shapeCasts_S128x10112_S128x10112 : S128x10112.ShapeCasts S128x10112
  inb_S256_S256_0 : ∀ a, (![0] : Fin 1 → Nat) a + S256.size a ≤ S256.size a
  h_S256 : 0 < S256.numel
  iota_S10112x1_d0_w32 : S10112x1.Iotas .tc 32 [0]
  shapeCasts_S256_S1x256 : S256.ShapeCasts S1x256
  broadcasts_S10112x1_S10112x256 : S10112x1.Broadcasts S10112x256
  broadcasts_S1x256_S10112x256 : S1x256.Broadcasts S10112x256
  natLt_1_32 : 1 < 32
  iota_S1x10112_d1_w32 : S1x10112.Iotas .tc 32 [1]
  shapeCasts_S256_S256x1 : S256.ShapeCasts S256x1
  broadcasts_S256x1_S256x10112 : S256x1.Broadcasts S256x10112
  broadcasts_S1x10112_S256x10112 : S1x10112.Broadcasts S256x10112
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x10112_S1x128x10112 : S128x10112.ShapeCasts S1x128x10112
  inb_S1x128x10112_S1x128x10112_0_0_0 : ∀ a, (![0, 0, 0] : Fin 3 → Nat) a + S1x128x10112.size a ≤ S1x128x10112.size a
  h_S1x128x10112 : 0 < S1x128x10112.numel
  slices_S2x128x10112_S1x128x10112_0_0_0 : S2x128x10112.Slices ![0, 0, 0] S1x128x10112
  shapeCasts_S1x128x10112_S128x10112 : S1x128x10112.ShapeCasts S128x10112
  slices_S2x128x10112_S1x128x10112_1_0_0 : S2x128x10112.Slices ![1, 0, 0] S1x128x10112
  transposes_S128x10112_S10112x128_1_0 : S128x10112.Transposes [1, 0] S10112x128
  shapeCasts_S128_S1x128 : S128.ShapeCasts S1x128
  bcast_S1x128_S10112x128_0_1 : S1x128.BroadcastsInDim S10112x128 (![0, 1] : Fin 2 → Fin S10112x128.rank)
  slices_S10112x128_S10000x128_0_0 : S10112x128.Slices ![0, 0] S10000x128
  dot_S128x10112_S10112x256_S128x256_1_0_0_1_n_n_wf : DotDims.WF S128x10112 S10112x256 S128x256 [1] [0] [0] [1] [] []
  dot_S128x256_S256x10112_S128x10112_1_0_0_1_n_n_wf : DotDims.WF S128x256 S256x10112 S128x10112 [1] [0] [0] [1] [] []
  dot_S128x128_S128x10112_S128x10112_1_0_0_1_n_n_wf : DotDims.WF S128x128 S128x10112 S128x10112 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256.size a ≤ S640000.size a
  hwx0_0 : ∀ i : grid0.Coords, EltTy.bits .i32 = 32 ∨ (Rect.block (s := S640000) S256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S640000.size a
  hwx0_1 : ∀ i : grid0.Coords, EltTy.bits .i32 = 32 ∨ (Rect.block (s := S640000) S256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x10112.size a ≤ S128x10112.size a
  hwx0_2 : ∀ i : grid0.Coords, EltTy.bits .bf16 = 32 ∨ (Rect.block (s := S128x10112) S128x10112.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128x10112.size a ≤ S2x128x10112.size a
  hwx0_4 : ∀ i : grid0.Coords, EltTy.bits .f32 = 32 ∨ (Rect.block (s := S2x128x10112) S1x128x10112.size (cc0_transform_4 i) (hinb0_4 i)).WholeWords (EltTy.packing .f32)

variable [Facts₀]

def dot_S128x10112_S10112x256_S128x256_1_0_0_1_n_n : DotDims S128x10112 S10112x256 S128x256 where
  lhsContracting := [1]
  rhsContracting := [0]
  lhsNonContracting := [0]
  rhsNonContracting := [1]
  lhsBatch := []
  rhsBatch := []
  wf := dot_S128x10112_S10112x256_S128x256_1_0_0_1_n_n_wf
def dot_S128x256_S256x10112_S128x10112_1_0_0_1_n_n : DotDims S128x256 S256x10112 S128x10112 where
  lhsContracting := [1]
  rhsContracting := [0]
  lhsNonContracting := [0]
  rhsNonContracting := [1]
  lhsBatch := []
  rhsBatch := []
  wf := dot_S128x256_S256x10112_S128x10112_1_0_0_1_n_n_wf
def dot_S128x128_S128x10112_S128x10112_1_0_0_1_n_n : DotDims S128x128 S128x10112 S128x10112 where
  lhsContracting := [1]
  rhsContracting := [0]
  lhsNonContracting := [0]
  rhsNonContracting := [1]
  lhsBatch := []
  rhsBatch := []
  wf := dot_S128x128_S128x10112_S128x10112_1_0_0_1_n_n_wf

abbrev win0_0 : Pipeline.Window sig grid0 :=
  Pipeline.Window.ofSpec (Memref.whole main_arg1) S256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x10112.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128x10112.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S10000x128, .f32⟩
  | .hbm, ⟨16, _⟩ => ⟨S640000x1, .i32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.SpecDefs.lean ====
/-
  What the two programs compute, written once over plain coordinates.

  Inputs: a feature table feat[a, d] (10000 rows of 128), two words per edge src[p], dst[p] (640000 edges), a weight
  matrix W[d, o] (128 × 128) and a bias[o].

  The message of edge p is the feature row its source names; the messages are summed per destination node, and the
  sums are sent through the linear layer:
      out[n, o] = (∑ d, (∑ p with dst[p] = n, feat[src[p], d]) · W[d, o]) + bias[o].

  Two arrangements of that value are stated here.

  • refForm — one sum over all edges. The row a source word names is read as the host's indexing reads it: a negative
    word is raised by 10000 first (wrap) and the result is clamped into [0, 9999] (srcRow); an edge whose destination
    word, read signed, is no node number contributes nothing.

  • kerForm — the edges cut into 2 halves of 1250 steps of 256 lanes (edge): per step the rows are taken out of the
    table padded with zero rows up to 10112 (row: a word from 10000 on names a zero row or none), added into the
    destination's column when the destination word IS the node number as a 32-bit word (contrib), the steps of a half
    accumulated in order (acc), each half sent through the linear layer by itself (proj), the two halves added and the
    bias added last.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array read by its two coordinates. -/
def mat {α : Type} {a b : Nat} (x : (⟨2, ![a, b]⟩ : Shape).Idx → α) : Fin a → Fin b → α := fun i j => x (ix2 i j)
/-- A rank-1 array read by its coordinate. -/
def vec {α : Type} {a : Nat} (x : (⟨1, ![a]⟩ : Shape).Idx → α) : Fin a → α := fun i => x (ix1 i)

/-- Edge number of lane e of step i of half c: the halves are contiguous ranges of 1250 · 256 edges. -/
def edge (c : Fin 2) (i : Fin 1250) (e : Fin 256) : Fin 640000 :=
  ⟨(c.val * 1250 + i.val) * 256 + e.val, by have := c.isLt; have := i.isLt; have := e.isLt; omega⟩

section
variable (feat : Fin 10000 → Fin 128 → EReal) (src dst : Fin 640000 → BitVec 32)
  (W : Fin 128 → Fin 128 → EReal) (bias : Fin 128 → EReal)

/-- Row s of the table padded with zero rows: the feature row when the word, read unsigned, is below 10000; zero else. -/
def row (s : BitVec 32) (d : Fin 128) : EReal := if h : s.toNat < 10000 then feat ⟨s.toNat, h⟩ d else 0

/-- What step i of half c adds at (d, n): the rows of the step's lanes whose destination word is n. -/
def contrib (c : Fin 2) (i : Fin 1250) (d : Fin 128) (n : Fin 10112) : EReal :=
  ∑ e : Fin 256, if dst (edge c i e) = BitVec.ofNat 32 n.val then row feat (src (edge c i e)) d else 0

/-- The accumulator of half c after its first k steps. -/
def acc (c : Fin 2) (k : ℕ) (d : Fin 128) (n : Fin 10112) : EReal :=
  ∑ i ∈ Finset.range k, if h : i < 1250 then contrib feat src dst c ⟨i, h⟩ d n else 0

theorem acc_zero (c : Fin 2) (d : Fin 128) (n : Fin 10112) : acc feat src dst c 0 d n = 0 := by
  unfold acc; exact Finset.sum_range_zero _

theorem acc_succ (c : Fin 2) (k : ℕ) (hk : k < 1250) (d : Fin 128) (n : Fin 10112) :
    acc feat src dst c (k + 1) d n = acc feat src dst c k d n + contrib feat src dst c ⟨k, hk⟩ d n := by
  unfold acc; rw [Finset.sum_range_succ, dif_pos hk]

/-- Half c's accumulated sums through the linear layer, at output feature o and node column n. -/
def proj (c : Fin 2) (o : Fin 128) (n : Fin 10112) : EReal :=
  ∑ d : Fin 128, W d o * acc feat src dst c 1250 d n

/-- The result in the halves' arrangement. -/
def kerForm (n : Fin 10000) (o : Fin 128) : EReal :=
  (proj feat src dst W 0 o (n.castLE (by omega)) + proj feat src dst W 1 o (n.castLE (by omega))) + bias o

/-- The host's index normalisation: a negative word is raised by the table's height. -/
def wrap (s : BitVec 32) : BitVec 32 := Scalar.select (IntOp.cmpi .slt s 0#32) (IntOp.addi s 10000#32) s

/-- The row the host's gather reads for a source word: the normalised word, read signed, clamped into [0, 9999]. -/
def srcRow (s : BitVec 32) : Fin 10000 := ⟨min (wrap s).toInt.toNat 9999, by omega⟩

/-- The per-destination sum of messages over all edges. -/
def seg (n : Fin 10000) (d : Fin 128) : EReal :=
  ∑ p : Fin 640000, if (dst p).toInt = (n.val : ℤ) then feat (srcRow (src p)) d else 0

/-- The result in the one-sum arrangement. -/
def refForm (n : Fin 10000) (o : Fin 128) : EReal :=
  (∑ d : Fin 128, seg feat src dst n d * W d o) + bias o

end

end Cert.Spec

end
-- ==== Proof.SpecLaw.lean ====
/-
  The two arrangements of the aggregated linear layer agree.
-/
import proofs.«428069_j1194000908631_3_alg».proof.Proof.SpecDefs

noncomputable section

open scoped BigOperators

namespace Cert.Spec

open Idealize.ShloMosaic

/-! ### Words -/

/-- A word whose signed reading is non-negative has the same signed and unsigned reading. -/
theorem toInt_eq_toNat_of_nonneg (s : BitVec 32) (h0 : 0 ≤ s.toInt) : s.toInt = (s.toNat : ℤ) := by
  have hlt := s.isLt
  rw [BitVec.toInt_eq_toNat_cond] at h0 ⊢
  split_ifs at h0 ⊢ <;> omega

/-- The index normalisation leaves a non-negative word alone. -/
theorem wrap_eq_self (s : BitVec 32) (h0 : 0 ≤ s.toInt) : wrap s = s := by
  have hslt : s.slt 0#32 = false := by
    unfold BitVec.slt
    rw [decide_eq_false_iff_not, BitVec.toInt_zero]
    omega
  unfold wrap Scalar.select IntOp.cmpi
  simp only [hslt]
  rw [if_neg]
  decide

/-- A source word that names a row of the table names the same row under both readings. -/
theorem srcRow_val (s : BitVec 32) (h : 0 ≤ s.toInt ∧ s.toInt < 10000) : (srcRow s).val = s.toNat := by
  have h1 := toInt_eq_toNat_of_nonneg s h.1
  unfold srcRow
  simp only [wrap_eq_self s h.1, h1, Int.toNat_natCast]
  omega

theorem row_eq (feat : Fin 10000 → Fin 128 → EReal) (s : BitVec 32)
    (h : 0 ≤ s.toInt ∧ s.toInt < 10000) (d : Fin 128) : row feat s d = feat (srcRow s) d := by
  have h1 := toInt_eq_toNat_of_nonneg s h.1
  have h2 : s.toNat < 10000 := by omega
  unfold row
  rw [dif_pos h2]
  congr 1
  apply Fin.ext
  exact (srcRow_val s h).symm

/-- For a node number, "the word is the node number as a 32-bit word" and "the word read signed is the node number"
    are the same condition. -/
theorem word_eq_iff (x : BitVec 32) (n : ℕ) (hn : n < 10000) :
    x = BitVec.ofNat 32 n ↔ x.toInt = (n : ℤ) := by
  have hx := x.isLt
  have hmod : n % 2 ^ 32 = n := Nat.mod_eq_of_lt (by omega)
  constructor
  · rintro rfl
    rw [BitVec.toInt_eq_toNat_cond, BitVec.toNat_ofNat, hmod]
    split_ifs <;> omega
  · intro h
    apply BitVec.eq_of_toNat_eq
    rw [BitVec.toNat_ofNat, hmod]
    rw [BitVec.toInt_eq_toNat_cond] at h
    split_ifs at h <;> omega

/-! ### The edges as halves × steps × lanes -/

/-- Half, step and lane number the edges one-to-one. -/
def edgeEquiv : Fin 2 × Fin 1250 × Fin 256 ≃ Fin 640000 where
  toFun x := edge x.1 x.2.1 x.2.2
  invFun p := (⟨p.val / 320000, by have := p.isLt; omega⟩, ⟨p.val / 256 % 1250, Nat.mod_lt _ (by norm_num)⟩,
    ⟨p.val % 256, Nat.mod_lt _ (by norm_num)⟩)
  left_inv := by
    rintro ⟨c, i, e⟩
    have hc := c.isLt; have hi := i.isLt; have he := e.isLt
    simp only [edge, Prod.mk.injEq, Fin.ext_iff]
    refine ⟨?_, ?_, ?_⟩ <;> omega
  right_inv := by
    intro p
    apply Fin.ext
    simp only [edge]
    omega

theorem sum_edge {M : Type} [AddCommMonoid M] (g : Fin 640000 → M) :
    ∑ p, g p = ∑ c : Fin 2, ∑ i : Fin 1250, ∑ e : Fin 256, g (edge c i e) := by
  rw [← Equiv.sum_comp edgeEquiv g, Fintype.sum_prod_type]
  apply Finset.sum_congr rfl
  intro c _
  rw [Fintype.sum_prod_type]
  rfl

/-! ### Finite sums of reals inside the extended reals -/

theorem coe_sum_real {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The message of edge p at feature d for node n, as a real number. -/
def term (f : Fin 10000 → Fin 128 → ℝ) (src dst : Fin 640000 → BitVec 32) (n : Fin 10000) (d : Fin 128)
    (p : Fin 640000) : ℝ :=
  if (dst p).toInt = (n.val : ℤ) then f (srcRow (src p)) d else 0

section
variable (feat : Fin 10000 → Fin 128 → EReal) (src dst : Fin 640000 → BitVec 32)
  (f : Fin 10000 → Fin 128 → ℝ) (hf : ∀ a d, feat a d = (f a d : EReal))
  (hsrc : ∀ p, 0 ≤ (src p).toInt ∧ (src p).toInt < 10000)
include hf hsrc

theorem contrib_coe (c : Fin 2) (i : Fin 1250) (d : Fin 128) (n : Fin 10000) :
    contrib feat src dst c i d (n.castLE (by omega))
      = ((∑ e : Fin 256, term f src dst n d (edge c i e) : ℝ) : EReal) := by
  unfold contrib
  rw [coe_sum_real]
  apply Finset.sum_congr rfl
  intro e _
  unfold term
  rw [row_eq feat _ (hsrc _), hf]
  have hiff : dst (edge c i e) = BitVec.ofNat 32 (Fin.castLE (by omega : 10000 ≤ 10112) n).val
      ↔ (dst (edge c i e)).toInt = (n.val : ℤ) := word_eq_iff (dst (edge c i e)) n.val n.isLt
  by_cases hd : (dst (edge c i e)).toInt = (n.val : ℤ)
  · rw [if_pos hd, if_pos (hiff.mpr hd)]
  · rw [if_neg hd, if_neg (fun h => hd (hiff.mp h)), EReal.coe_zero]

theorem acc_coe (c : Fin 2) (d : Fin 128) (n : Fin 10000) :
    acc feat src dst c 1250 d (n.castLE (by omega))
      = ((∑ i : Fin 1250, ∑ e : Fin 256, term f src dst n d (edge c i e) : ℝ) : EReal) := by
  unfold acc
  rw [Finset.sum_range, coe_sum_real]
  apply Finset.sum_congr rfl
  intro i _
  rw [dif_pos i.isLt]
  exact contrib_coe feat src dst f hf hsrc c i d n

omit hsrc in
theorem seg_coe (n : Fin 10000) (d : Fin 128) :
    seg feat src dst n d
      = ((∑ c : Fin 2, ∑ i : Fin 1250, ∑ e : Fin 256, term f src dst n d (edge c i e) : ℝ) : EReal) := by
  rw [← sum_edge (fun p => term f src dst n d p), coe_sum_real]
  unfold seg
  apply Finset.sum_congr rfl
  intro p _
  unfold term
  rw [hf]
  split_ifs
  · rfl
  · rw [EReal.coe_zero]

end

/-- Where every feature and every weight is a real number and every source word names a row of the table, the halves'
    arrangement and the one-sum arrangement are one value. -/
theorem ker_eq_ref (feat : Fin 10000 → Fin 128 → EReal) (src dst : Fin 640000 → BitVec 32)
    (W : Fin 128 → Fin 128 → EReal) (bias : Fin 128 → EReal)
    (hf : ∀ a d, ∃ r : ℝ, feat a d = (r : EReal)) (hW : ∀ d o, ∃ r : ℝ, W d o = (r : EReal))
    (hsrc : ∀ p, 0 ≤ (src p).toInt ∧ (src p).toInt < 10000) (n : Fin 10000) (o : Fin 128) :
    kerForm feat src dst W bias n o = refForm feat src dst W bias n o := by
  choose f hf' using hf
  choose w hw' using hW
  unfold kerForm refForm proj
  refine congrArg (fun x : EReal => x + bias o) ?_
  simp only [acc_coe feat src dst f hf' hsrc, seg_coe feat src dst f hf', hw']
  simp only [← EReal.coe_mul, ← coe_sum_real, ← EReal.coe_add]
  rw [EReal.coe_eq_coe_iff]
  rw [← Finset.sum_add_distrib]
  apply Finset.sum_congr rfl
  intro d _
  rw [Fin.sum_univ_two]
  ring

end Cert.Spec

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.RefValue.lean ====
/-
  The reference program's result, read index by index: the one-sum arrangement of the specification.
-/
import proofs.«428069_j1194000908631_3_alg».proof.Defs
import proofs.«428069_j1194000908631_3_alg».proof.Proof.Gen.ReferenceIdeal.Run
import proofs.«428069_j1194000908631_3_alg».proof.Proof.Gen.ReferenceIdeal.Read
import proofs.«428069_j1194000908631_3_alg».proof.Proof.LibRows
import proofs.«428069_j1194000908631_3_alg».proof.Proof.SpecDefs

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-- The index word the gather reads for edge p: the source word, normalised. -/
theorem word_apply (x1 : IVec S640000 32) (p : Fin 640000) :
    Cert.ReferenceIdeal.Read.val_main_v5 (F := Ideal) x1 (ix2 p (0 : Fin 1)) = Cert.Spec.wrap (x1 (ix1 p)) := by
  rw [Read.val_main_v5_apply, Read.val_main_v4_apply, Read.val_main_v1_apply, Read.val_main_v3_apply,
    Read.val_main_v0_apply, Read.val_main_v2_apply, Read.val_main_c_apply, Read.val_main_c_0_apply]
  have e : Read.idx_main_v5 (ix2 p (0 : Fin 1)) = ix1 p := by
    funext a; match a with | ⟨0, _⟩ => rfl
  rw [e]
  rfl

/-- The gathered array at (p, q): the table's row named by edge p's source word, column q. -/
theorem gather_apply (x0 : FVec Ideal S10000x128 .f32) (x1 : IVec S640000 32) (p : Fin 640000) (q : Fin 128) :
    Cert.ReferenceIdeal.Read.val_main_v6 (F := Ideal) x0 x1 (ix2 p q)
      = x0 (ix2 (Cert.Spec.srcRow (x1 (ix1 p))) q) := by
  unfold Read.val_main_v6
  have e : gather_S10000x128_S640000x1_S640000x128_1_0_n_n_0_1_1128
      = Cert.LibRows.rowGatherDims 10000 640000 128 Facts₀.gather_S10000x128_S640000x1_S640000x128_1_0_n_n_0_1_1128_wf := rfl
  rw [e, Cert.LibRows.rowGather_apply (by norm_num)]
  refine congrArg (fun r => x0 (ix2 r q)) (Fin.ext ?_)
  show min (Read.val_main_v5 (F := Ideal) x1 (ix2 p (0 : Fin 1))).toInt.toNat (10000 - 1)
      = min (Cert.Spec.wrap (x1 (ix1 p))).toInt.toNat 9999
  rw [word_apply]

/-- The scattered array at (r, q): the sum, over the edges whose destination word is r, of the gathered rows. -/
theorem scatter_apply (x0 : FVec Ideal S10000x128 .f32) (x1 x2 : IVec S640000 32) (r : Fin 10000) (q : Fin 128) :
    Cert.ReferenceIdeal.Read.val_main_v9 (F := Ideal) x0 x1 x2 (ix2 r q)
      = Cert.Spec.seg (Cert.Spec.mat x0) (Cert.Spec.vec x1) (Cert.Spec.vec x2) r q := by
  unfold Read.val_main_v9
  have e : scatter_S10000x128_S640000x1_S640000x128_1_0_0_1
      = Cert.LibRows.rowScatterDims 10000 640000 128 Facts₀.scatter_S10000x128_S640000x1_S640000x128_1_0_0_1_wf := rfl
  rw [e, Cert.LibRows.rowScatterAdd_apply, Read.val_main_v7_apply, Read.val_main_cst_apply]
  -- the operand is the zero array
  have hz : (FloatOps.ofBits (F := Ideal) .f32 0x00000000#32) = 0 := Idealize.ShloMosaic.Ideal.ofBits_zero_f32
  rw [hz, zero_add]
  unfold Cert.Spec.seg
  refine Finset.sum_congr rfl fun p _ => ?_
  have e8 : Read.idx_main_v8 (ix2 p (0 : Fin 1)) = ix1 p := by
    funext a; match a with | ⟨0, _⟩ => rfl
  rw [Read.val_main_v8_apply, gather_apply, e8]
  rfl

/-- The last stage of the reference at (n, o). -/
theorem stage_apply (x0 : FVec Ideal S10000x128 .f32) (x1 x2 : IVec S640000 32) (x3 : FVec Ideal S128x128 .f32)
    (x4 : FVec Ideal S128 .f32) (n : Fin 10000) (o : Fin 128) :
    Cert.ReferenceIdeal.Read.val_main_v13 (F := Ideal) x0 x1 x2 x3 x4 (ix2 n o)
      = Cert.Spec.refForm (Cert.Spec.mat x0) (Cert.Spec.vec x1) (Cert.Spec.vec x2) (Cert.Spec.mat x3) (Cert.Spec.vec x4) n o := by
  rw [Read.val_main_v13_apply, Read.val_main_v10_apply, Read.val_main_v12_apply, Read.val_main_v11_apply]
  -- the contraction reads row n of the left factor against column o of the right one
  have el : ∀ k : Fin 128, Read.lidx_main_v10 (ix2 n o) k = ix2 n k := fun k => by
    funext a; match a with | ⟨0, _⟩ => rfl | ⟨1, _⟩ => rfl
  have er : ∀ k : Fin 128, Read.ridx_main_v10 (ix2 n o) k = ix2 k o := fun k => by
    funext a; match a with | ⟨0, _⟩ => rfl | ⟨1, _⟩ => rfl
  -- the bias is read at o
  have eb : Read.idx_main_v11 (Read.idx_main_v12 (ix2 n o)) = ix1 o := by
    funext a; match a with | ⟨0, _⟩ => rfl
  -- the left factor is the per-destination sum of messages
  have hs : (∑ k : Fin 128, Read.val_main_v9 (F := Ideal) x0 x1 x2 (Read.lidx_main_v10 (ix2 n o) k)
        * x3 (Read.ridx_main_v10 (ix2 n o) k))
      = ∑ d : Fin 128, Cert.Spec.seg (Cert.Spec.mat x0) (Cert.Spec.vec x1) (Cert.Spec.vec x2) n d
        * Cert.Spec.mat x3 d o :=
    Finset.sum_congr rfl fun k _ => by rw [el, er, scatter_apply]; rfl
  rw [hs, eb]
  rfl

/-- The reference's run: its result array holds the one-sum arrangement of its arguments; the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = (fun j => Cert.Spec.refForm (Cert.Spec.mat (m ((c.tc : Thread nD τ).loc main_arg0)))
              (Cert.Spec.vec (m ((c.tc : Thread nD τ).loc main_arg1))) (Cert.Spec.vec (m ((c.tc : Thread nD τ).loc main_arg2)))
              (Cert.Spec.mat (m ((c.tc : Thread nD τ).loc main_arg3))) (Cert.Spec.vec (m ((c.tc : Thread nD τ).loc main_arg4)))
              (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (by
      rw [Cert.ReferenceIdeal.Read.val_main_v13_eq]
      funext j
      obtain ⟨a, b, rfl⟩ : ∃ a b, j = ix2 a b := ⟨j 0, j 1, eq_ix2 j⟩
      exact stage_apply ..), (h c).2⟩)
    (Cert.ReferenceIdeal.Value.run (F := Ideal) m ρ)

end Cert.ReferenceIdeal.RefValue

end
-- ==== Proof.PreFacts.lean ====
/-
  What the precondition says of the idealized kernel's launch memory: every feature and every weight is a real number,
  and every source word, read signed, lies in [0, 10000).
-/
import proofs.«428069_j1194000908631_3_alg».proof.Defs
import proofs.«428069_j1194000908631_3_alg».proof.Proof.Gen.Pre_finite_inputs
import Idealize.ShloMosaic.Lib.ValueIdx
import Idealize.ShloMosaic.Lib.ReduceAll

noncomputable section

namespace Cert.PreFacts

open Idealize.ShloMosaic Idealize.ShloMosaic.TcCoe Idealize.SL.Sem Idealize.ShloMosaic.ValueIdx
open Cert.KernelIdeal

/-- The scalar shape has exactly one index. -/
instance subsingleton_scalar_idx : Subsingleton Cert.Pre_finite_inputs.S_.Idx :=
  ⟨fun _ _ => funext fun d => d.elim0⟩

/-- The f32 pattern 0x7F800000 denotes +∞. -/
theorem inf_pattern : Ideal.ofBits .f32 0x7F800000#32 = (⊤ : EReal) := by
  simp [Ideal.ofBits, Ideal.ieee]

/-- An extended real whose absolute value max x (-x) lies strictly below +∞ is neither +∞ nor -∞,
    hence a real number. -/
theorem real_of_abs_lt_inf (x : EReal)
    (h : Ideal.cmp .olt (max x (-x)) (Ideal.ofBits .f32 0x7F800000#32) = 1#1) : ∃ r : ℝ, x = (r : EReal) := by
  rw [inf_pattern] at h
  have hlt : max x (-x) < ⊤ := by
    by_contra hn
    simp [Ideal.cmp, hn] at h
  have h1 : x ≠ ⊤ := by
    rintro rfl
    simp at hlt
  have h2 : x ≠ ⊥ := by
    rintro rfl
    simp at hlt
  exact ⟨x.toReal, (EReal.coe_toReal h1 h2).symm⟩

/-- The precondition decoded on device c. -/
theorem of_pre [Cert.Pre_finite_inputs.Facts] (m : (ℓ : Loc nD τ sig) → Buf (Elt Ideal) ℓ) (h : Cert.Pre_KernelIdeal m) (c : Dev nD) :
    (∀ (a : Fin 10000) (d : Fin 128), ∃ r : ℝ, (m ((c.tc : Thread nD τ).loc main_arg0) : S10000x128.Idx → EReal) (ix2 a d) = (r : EReal))
    ∧ (∀ (d o : Fin 128), ∃ r : ℝ, (m ((c.tc : Thread nD τ).loc main_arg3) : S128x128.Idx → EReal) (ix2 d o) = (r : EReal))
    ∧ (∀ p : Fin 640000, 0 ≤ ((m ((c.tc : Thread nD τ).loc main_arg1) : S640000.Idx → BitVec 32) (ix1 p)).toInt
        ∧ ((m ((c.tc : Thread nD τ).loc main_arg1) : S640000.Idx → BitVec 32) (ix1 p)).toInt < 10000) := by
  -- The predicate's single output word is 1: a conjunction of five "all elements are 1" reductions.
  have e := congrFun (h c) ix0
  dsimp only [Cert.Pre_finite_inputs.fn, Cert.Pre_finite_inputs.fn_part1, andi] at e
  rw [IntOp.andi_eq_one, IntOp.andi_eq_one, IntOp.andi_eq_one, IntOp.andi_eq_one] at e
  obtain ⟨⟨⟨⟨e0, e3⟩, _e4⟩, ege⟩, elt⟩ := e
  refine ⟨fun a d => ?_, fun d o => ?_, fun p => ⟨?_, ?_⟩⟩
  · -- |feature a d| < +∞
    exact real_of_abs_lt_inf _ (Host.reduce_andi_all _ _ _ _ _ e0 (ix2 a d))
  · -- |weight d o| < +∞
    exact real_of_abs_lt_inf _ (Host.reduce_andi_all _ _ _ _ _ e3 (ix2 d o))
  · -- 0 ≤ source word p, read signed
    exact IntOp.cmpi_sge.1 (Host.reduce_andi_all _ _ _ _ _ ege (ix1 p))
  · -- source word p < 10000, read signed
    exact IntOp.cmpi_slt.1 (Host.reduce_andi_all _ _ _ _ _ elt (ix1 p))

end Cert.PreFacts

end
-- ==== Proof.KArgs.lean ====
/-
  The idealized kernel's arrays, each named once at its literal type: the five arguments as launched, the table and the
  transposed weights the region finds, each window's block at a grid point, the region's result array after the run and
  the program's result.
-/
import proofs.«428069_j1194000908631_3_alg».proof.Proof.Gen.KernelIdeal.Frame
import Idealize.ShloMosaic.PureOps.Ideal

noncomputable section

namespace Cert.KernelIdeal.KArgs

open Cert.KernelIdeal Cert.KernelIdeal.Gen Idealize.ShloMosaic Idealize.ShloMosaic.TcCoe Idealize.SL.Sem

variable (m : (ℓ : Loc nD τ sig) → Buf (Elt Ideal) ℓ)

/-- The feature table, 10000 rows of 128. -/
abbrev feat (c : Dev nD) : S10000x128.Idx → EReal := m ((c.tc : Thread nD τ).loc main_arg0)
/-- The source words, one per edge. -/
abbrev srcW (c : Dev nD) : S640000.Idx → BitVec 32 := m ((c.tc : Thread nD τ).loc main_arg1)
/-- The destination words, one per edge. -/
abbrev dstW (c : Dev nD) : S640000.Idx → BitVec 32 := m ((c.tc : Thread nD τ).loc main_arg2)
/-- The weights, 128 × 128. -/
abbrev wts (c : Dev nD) : S128x128.Idx → EReal := m ((c.tc : Thread nD τ).loc main_arg3)
/-- The bias. -/
abbrev bias (c : Dev nD) : S128.Idx → EReal := m ((c.tc : Thread nD τ).loc main_arg4)
/-- The padded, transposed table as the region finds it. -/
abbrev table (c : Dev nD) : S128x10112.Idx → EReal := V m c main_v2
/-- The transposed weights as the region finds them. -/
abbrev wtsT (c : Dev nD) : S128x128.Idx → EReal := V m c main_v4
/-- The blocks the body is given at point t. -/
abbrev blkSrc (c : Dev nD) (t : Fin cfg0.N) : S256.Idx → BitVec 32 := iblk m c 0 t
abbrev blkDst (c : Dev nD) (t : Fin cfg0.N) : S256.Idx → BitVec 32 := iblk m c 1 t
abbrev blkTable (c : Dev nD) (t : Fin cfg0.N) : S128x10112.Idx → EReal := iblk m c 2 t
abbrev blkWts (c : Dev nD) (t : Fin cfg0.N) : S128x128.Idx → EReal := iblk m c 3 t
/-- What the scratch accumulator and the output's staging buffer hold after point t. -/
abbrev accAt (c : Dev nD) (t : Fin cfg0.N) : S128x10112.Idx → EReal := (outsAt0 m c t.val t.isLt).2
abbrev outAt (c : Dev nD) (t : Fin cfg0.N) : S1x128x10112.Idx → EReal := (outsAt0 m c t.val t.isLt).1
/-- The region's result array after the run. -/
abbrev outArr (c : Dev nD) : S2x128x10112.Idx → EReal := (dats m 0 c).arrAt 4 cfg0.N
/-- The program's result. -/
abbrev result (c : Dev nD) : S10000x128.Idx → EReal := Pipeline.afterTail₀ cfgs (dats m) 0 (V0 m) [hostOps1] c main_v15

end Cert.KernelIdeal.KArgs

end
-- ==== Proof.Pieces.lean ====
/-
  What each control case of the body leaves behind, as values.

  The body's three stores write whole buffers. In the first step of a half the accumulator is reset to the zero block and
  the step's contribution is added to what is read back; in the other steps the contribution is added to what the step
  before left; in the last step of a half the accumulator so updated is also sent through the linear layer into the
  output's buffer.
-/
import proofs.«428069_j1194000908631_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves the accumulator at the old accumulator plus the step's contribution. -/
theorem acc_B (c : Dev nD) (i : grid0.Coords) (arg2 : Memref sig .tc .vmem S256 .i32) (harg2 : arg2.IsWhole) (arg3 : Memref sig .tc .vmem S256 .i32) (harg3 : arg3.IsWhole) (arg4 : Memref sig .tc .vmem S128x10112 .bf16) (harg4 : arg4.IsWhole) (arg5 : Memref sig .tc .vmem S128x128 .bf16) (harg5 : arg5.IsWhole) (arg6 : Memref sig .tc .vmem S1x128x10112 .f32) (harg6 : arg6.IsWhole) (arg7 : Memref sig .tc .vmem S128x10112 .f32) (harg7 : arg7.IsWhole) (hc0 : ¬cond0_0 i) (hc1 : ¬cond0_1 i)
    (x0 : Vec F S256 .i32) (x1 : Vec F S256 .i32) (x2 : Vec F S128x10112 .bf16) (x3 : Vec F S128x128 .bf16) (xs0 : Vec F S128x10112 .f32) :
    sout0_B_0 c i arg2 harg2 arg3 harg3 arg4 harg4 arg5 harg5 arg6 harg6 arg7 harg7 hc0 hc1 x0 x1 x2 x3 xs0 = k0_pay2 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg7.read_unread,
    View.ld_unit_zero (S := S128x10112) hz2, View.ld_unit_zero (S := S256) hz1]

/-- The last step of a half leaves the accumulator likewise … -/
theorem acc_C (c : Dev nD) (i : grid0.Coords) (arg2 : Memref sig .tc .vmem S256 .i32) (harg2 : arg2.IsWhole) (arg3 : Memref sig .tc .vmem S256 .i32) (harg3 : arg3.IsWhole) (arg4 : Memref sig .tc .vmem S128x10112 .bf16) (harg4 : arg4.IsWhole) (arg5 : Memref sig .tc .vmem S128x128 .bf16) (harg5 : arg5.IsWhole) (arg6 : Memref sig .tc .vmem S1x128x10112 .f32) (harg6 : arg6.IsWhole) (arg7 : Memref sig .tc .vmem S128x10112 .f32) (harg7 : arg7.IsWhole) (hc0 : ¬cond0_0 i) (hc1 : cond0_1 i)
    (x0 : Vec F S256 .i32) (x1 : Vec F S256 .i32) (x2 : Vec F S128x10112 .bf16) (x3 : Vec F S128x128 .bf16) (xs0 : Vec F S128x10112 .f32) :
    sout0_C_0 c i arg2 harg2 arg3 harg3 arg4 harg4 arg5 harg5 arg6 harg6 arg7 harg7 hc0 hc1 x0 x1 x2 x3 xs0 = k0_pay2 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.readCov_unit_zero (S := S128x10112) _ hz2, View.ld_unit_zero (S := S128x10112) hz2, View.ld_unit_zero (S := S128x128) hz2, View.ld_unit_zero (S := S256) hz1]

/-- … and the output's buffer at the projection of that accumulator. -/
theorem out_C (c : Dev nD) (i : grid0.Coords) (arg2 : Memref sig .tc .vmem S256 .i32) (harg2 : arg2.IsWhole) (arg3 : Memref sig .tc .vmem S256 .i32) (harg3 : arg3.IsWhole) (arg4 : Memref sig .tc .vmem S128x10112 .bf16) (harg4 : arg4.IsWhole) (arg5 : Memref sig .tc .vmem S128x128 .bf16) (harg5 : arg5.IsWhole) (arg6 : Memref sig .tc .vmem S1x128x10112 .f32) (harg6 : arg6.IsWhole) (arg7 : Memref sig .tc .vmem S128x10112 .f32) (harg7 : arg7.IsWhole) (hc0 : ¬cond0_0 i) (hc1 : cond0_1 i)
    (x0 : Vec F S256 .i32) (x1 : Vec F S256 .i32) (x2 : Vec F S128x10112 .bf16) (x3 : Vec F S128x128 .bf16) (xs0 : Vec F S128x10112 .f32) :
    out0_C_4 c i arg2 harg2 arg3 harg3 arg4 harg4 arg5 harg5 arg6 harg6 arg7 harg7 hc0 hc1 x0 x1 x2 x3 xs0 = k0_pay3 x3 (k0_pay2 x0 x1 x2 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg7.read_unread,
    View.readCov_unit_zero (S := S128x10112) _ hz2, View.ld_unit_zero (S := S128x10112) hz2, View.ld_unit_zero (S := S128x128) hz2, View.ld_unit_zero (S := S256) hz1]

/-- The first step of a half resets the accumulator and leaves the zero block plus the step's contribution. -/
theorem acc_A (c : Dev nD) (i : grid0.Coords) (arg2 : Memref sig .tc .vmem S256 .i32) (harg2 : arg2.IsWhole) (arg3 : Memref sig .tc .vmem S256 .i32) (harg3 : arg3.IsWhole) (arg4 : Memref sig .tc .vmem S128x10112 .bf16) (harg4 : arg4.IsWhole) (arg5 : Memref sig .tc .vmem S128x128 .bf16) (harg5 : arg5.IsWhole) (arg6 : Memref sig .tc .vmem S1x128x10112 .f32) (harg6 : arg6.IsWhole) (arg7 : Memref sig .tc .vmem S128x10112 .f32) (harg7 : arg7.IsWhole) (hc0 : cond0_0 i) (hc1 : ¬cond0_1 i)
    (x0 : Vec F S256 .i32) (x1 : Vec F S256 .i32) (x2 : Vec F S128x10112 .bf16) (x3 : Vec F S128x128 .bf16) :
    sout0_A_0 c i arg2 harg2 arg3 harg3 arg4 harg4 arg5 harg5 arg6 harg6 arg7 harg7 hc0 hc1 x0 x1 x2 x3 = k0_pay2 x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S128x10112) hz2]
  simp only [View.readAt_eq_ld, harg2.read_unread, harg3.read_unread, harg4.read_unread, harg5.read_unread, harg7.read_unread,
    View.readCov_unit_zero (S := S128x10112) _ hz2, View.ld_unit_zero (S := S128x10112) hz2, View.ld_unit_zero (S := S128x128) hz2, View.ld_unit_zero (S := S256) hz1]

end Cert.KernelIdeal.Pieces

end
-- ==== Proof.Payload.lean ====
/-
  The body's three stored values at the ideal instance, read at an index.
-/
import proofs.«428069_j1194000908631_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Words and one-hot sums -/

/-- The indicator word of an equality of 32-bit words, converted: one where they agree, zero elsewhere. -/
theorem ind_apply (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    rw [if_pos rfl]
    have : IntOp.cmpi .eq a a = 1#1 := by simp [IntOp.cmpi]
    rw [this]
    norm_num
  · rw [if_neg h]
    have hb : (a == b) = false := by simpa using h
    have : IntOp.cmpi .eq a b = 0#1 := by simp [IntOp.cmpi, hb]
    rw [this]
    norm_num

/-- Below 2^32 a number's word is `s` exactly when the number is `s` read unsigned. -/
theorem ofNat_eq_iff {N : Nat} (hN : N ≤ 2 ^ 32) (k : Fin N) (s : BitVec 32) :
    BitVec.ofNat 32 k.val = s ↔ k.val = s.toNat := by
  have hk : k.val % 2 ^ 32 = k.val := Nat.mod_eq_of_lt (lt_of_lt_of_le k.isLt hN)
  constructor
  · intro h
    rw [← h, BitVec.toNat_ofNat, hk]
  · intro h
    apply BitVec.eq_of_toNat_eq
    rw [BitVec.toNat_ofNat, hk]
    exact h

/-- A sum against the indicator of "the index's word is `s`" picks the entry at `s` read unsigned, or nothing when that
    is outside the range. -/
theorem sum_onehot_gather {N : Nat} (hN : N ≤ 2 ^ 32) (g : Fin N → EReal) (s : BitVec 32) :
    ∑ k : Fin N, g k * (if BitVec.ofNat 32 k.val = s then (1 : EReal) else 0)
      = if h : s.toNat < N then g ⟨s.toNat, h⟩ else 0 := by
  by_cases h : s.toNat < N
  · rw [dif_pos h, Finset.sum_eq_single (⟨s.toNat, h⟩ : Fin N)]
    · rw [if_pos ((ofNat_eq_iff hN _ s).mpr rfl), mul_one]
    · intro b _ hb
      rw [if_neg (fun hh => hb (Fin.ext ((ofNat_eq_iff hN b s).mp hh))), mul_zero]
    · intro hh
      exact absurd (Finset.mem_univ _) hh
  · rw [dif_neg h]
    refine Finset.sum_eq_zero fun b _ => ?_
    rw [if_neg (fun hh => h (by rw [← (ofNat_eq_iff hN b s).mp hh]; exact b.isLt)), mul_zero]

/-- A sum against the indicator of "lane `e`'s word is `s`" keeps the lanes whose word is `s`. -/
theorem sum_onehot_scatter {N : Nat} (g : Fin N → EReal) (w : Fin N → BitVec 32) (s : BitVec 32) :
    ∑ e : Fin N, g e * (if w e = s then (1 : EReal) else 0) = ∑ e : Fin N, if w e = s then g e else 0 := by
  refine Finset.sum_congr rfl fun e _ => ?_
  by_cases h : w e = s
  · rw [if_pos h, if_pos h, mul_one]
  · rw [if_neg h, if_neg h, mul_zero]

/-! ## The product mm1 at an index -/

theorem lhs_mm1_0 (i : S128x256.Idx) (q : dot_S128x10112_S10112x256_S128x256_1_0_0_1_n_n.contr.Idx) :
    (dot_S128x10112_S10112x256_S128x256_1_0_0_1_n_n.lhsIdx i q 0).val = (i 0).val := by
  unfold DotDims.lhsIdx
  rw [dif_neg (show ¬(0 : Fin S128x10112.rank) ∈ dot_S128x10112_S10112x256_S128x256_1_0_0_1_n_n.lhsBatch by decide), dif_pos (show (0 : Fin S128x10112.rank) ∈ dot_S128x10112_S10112x256_S128x256_1_0_0_1_n_n.lhsNonContracting by decide)]
  rfl
theorem lhs_mm1_1 (i : S128x256.Idx) (q : dot_S128x10112_S10112x256_S128x256_1_0_0_1_n_n.contr.Idx) :
    (dot_S128x10112_S10112x256_S128x256_1_0_0_1_n_n.lhsIdx i q 1).val = (q ⟨0, by decide⟩).val :=
  dot_S128x10112_S10112x256_S128x256_1_0_0_1_n_n.lhsIdx_val_of_single rfl i q
theorem rhs_mm1_0 (i : S128x256.Idx) (q : dot_S128x10112_S10112x256_S128x256_1_0_0_1_n_n.contr.Idx) :
    (dot_S128x10112_S10112x256_S128x256_1_0_0_1_n_n.rhsIdx i q 0).val = (q ⟨0, by decide⟩).val :=
  dot_S128x10112_S10112x256_S128x256_1_0_0_1_n_n.rhsIdx_val_of_single rfl i q
theorem rhs_mm1_1 (i : S128x256.Idx) (q : dot_S128x10112_S10112x256_S128x256_1_0_0_1_n_n.contr.Idx) :
    (dot_S128x10112_S10112x256_S128x256_1_0_0_1_n_n.rhsIdx i q 1).val = (i 1).val := by
  unfold DotDims.rhsIdx
  rw [dif_neg (show ¬(1 : Fin S10112x256.rank) ∈ dot_S128x10112_S10112x256_S128x256_1_0_0_1_n_n.rhsBatch by decide), dif_pos (show (1 : Fin S10112x256.rank) ∈ dot_S128x10112_S10112x256_S128x256_1_0_0_1_n_n.rhsNonContracting by decide)]
  rfl

/-- The product into the zero accumulator at (p, q): the sum over the contracted coordinate. -/
theorem mm1_apply (lhs : FVec Ideal S128x10112 .bf16) (rhs : FVec Ideal S10112x256 .bf16) (p : Fin 128) (q : Fin 256) :
    (matmul (F := Ideal) dot_S128x10112_S10112x256_S128x256_1_0_0_1_n_n none lhs rhs (constant (F := Ideal) S128x256 .f32 0x00000000#32) : S128x256.Idx → EReal) (ix2 p q)
      = ∑ k : Fin 10112, (lhs : S128x10112.Idx → EReal) (ix2 p k) * (rhs : S10112x256.Idx → EReal) (ix2 k q) := by
  refine (Ideal.matmul_constant_zero_apply dot_S128x10112_S10112x256_S128x256_1_0_0_1_n_n none lhs rhs (ix2 p q)).trans ?_
  rw [← Equiv.sum_comp (contrEquiv1 dot_S128x10112_S10112x256_S128x256_1_0_0_1_n_n 10112 rfl rfl).symm]
  refine Finset.sum_congr rfl fun k _ => ?_
  have hk := contrEquiv1_symm_val dot_S128x10112_S10112x256_S128x256_1_0_0_1_n_n 10112 rfl rfl k
  have el : dot_S128x10112_S10112x256_S128x256_1_0_0_1_n_n.lhsIdx (ix2 p q) ((contrEquiv1 dot_S128x10112_S10112x256_S128x256_1_0_0_1_n_n 10112 rfl rfl).symm k) = ix2 p k := funext fun a => Fin.ext (by
    match a with
    | ⟨0, _⟩ => exact lhs_mm1_0 _ _
    | ⟨1, _⟩ => exact (lhs_mm1_1 _ _).trans hk)
  have er : dot_S128x10112_S10112x256_S128x256_1_0_0_1_n_n.rhsIdx (ix2 p q) ((contrEquiv1 dot_S128x10112_S10112x256_S128x256_1_0_0_1_n_n 10112 rfl rfl).symm k) = ix2 k q := funext fun a => Fin.ext (by
    match a with
    | ⟨0, _⟩ => exact (rhs_mm1_0 _ _).trans hk
    | ⟨1, _⟩ => exact rhs_mm1_1 _ _)
  rw [el, er]

/-! ## The product mm2 at an index -/

theorem lhs_mm2_0 (i : S128x10112.Idx) (q : dot_S128x256_S256x10112_S128x10112_1_0_0_1_n_n.contr.Idx) :
    (dot_S128x256_S256x10112_S128x10112_1_0_0_1_n_n.lhsIdx i q 0).val = (i 0).val := by
  unfold DotDims.lhsIdx
  rw [dif_neg (show ¬(0 : Fin S128x256.rank) ∈ dot_S128x256_S256x10112_S128x10112_1_0_0_1_n_n.lhsBatch by decide), dif_pos (show (0 : Fin S128x256.rank) ∈ dot_S128x256_S256x10112_S128x10112_1_0_0_1_n_n.lhsNonContracting by decide)]
  rfl
theorem lhs_mm2_1 (i : S128x10112.Idx) (q : dot_S128x256_S256x10112_S128x10112_1_0_0_1_n_n.contr.Idx) :
    (dot_S128x256_S256x10112_S128x10112_1_0_0_1_n_n.lhsIdx i q 1).val = (q ⟨0, by decide⟩).val :=
  dot_S128x256_S256x10112_S128x10112_1_0_0_1_n_n.lhsIdx_val_of_single rfl i q
theorem rhs_mm2_0 (i : S128x10112.Idx) (q : dot_S128x256_S256x10112_S128x10112_1_0_0_1_n_n.contr.Idx) :
    (dot_S128x256_S256x10112_S128x10112_1_0_0_1_n_n.rhsIdx i q 0).val = (q ⟨0, by decide⟩).val :=
  dot_S128x256_S256x10112_S128x10112_1_0_0_1_n_n.rhsIdx_val_of_single rfl i q
theorem rhs_mm2_1 (i : S128x10112.Idx) (q : dot_S128x256_S256x10112_S128x10112_1_0_0_1_n_n.contr.Idx) :
    (dot_S128x256_S256x10112_S128x10112_1_0_0_1_n_n.rhsIdx i q 1).val = (i 1).val := by
  unfold DotDims.rhsIdx
  rw [dif_neg (show ¬(1 : Fin S256x10112.rank) ∈ dot_S128x256_S256x10112_S128x10112_1_0_0_1_n_n.rhsBatch by decide), dif_pos (show (1 : Fin S256x10112.rank) ∈ dot_S128x256_S256x10112_S128x10112_1_0_0_1_n_n.rhsNonContracting by decide)]
  rfl

/-- The product into the zero accumulator at (p, q): the sum over the contracted coordinate. -/
theorem mm2_apply (lhs : FVec Ideal S128x256 .bf16) (rhs : FVec Ideal S256x10112 .bf16) (p : Fin 128) (q : Fin 10112) :
    (matmul (F := Ideal) dot_S128x256_S256x10112_S128x10112_1_0_0_1_n_n none lhs rhs (constant (F := Ideal) S128x10112 .f32 0x00000000#32) : S128x10112.Idx → EReal) (ix2 p q)
      = ∑ k : Fin 256, (lhs : S128x256.Idx → EReal) (ix2 p k) * (rhs : S256x10112.Idx → EReal) (ix2 k q) := by
  refine (Ideal.matmul_constant_zero_apply dot_S128x256_S256x10112_S128x10112_1_0_0_1_n_n none lhs rhs (ix2 p q)).trans ?_
  rw [← Equiv.sum_comp (contrEquiv1 dot_S128x256_S256x10112_S128x10112_1_0_0_1_n_n 256 rfl rfl).symm]
  refine Finset.sum_congr rfl fun k _ => ?_
  have hk := contrEquiv1_symm_val dot_S128x256_S256x10112_S128x10112_1_0_0_1_n_n 256 rfl rfl k
  have el : dot_S128x256_S256x10112_S128x10112_1_0_0_1_n_n.lhsIdx (ix2 p q) ((contrEquiv1 dot_S128x256_S256x10112_S128x10112_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S128x256_S256x10112_S128x10112_1_0_0_1_n_n.rhsIdx (ix2 p q) ((contrEquiv1 dot_S128x256_S256x10112_S128x10112_1_0_0_1_n_n 256 rfl rfl).symm k) = ix2 k q := funext fun a => Fin.ext (by
    match a with
    | ⟨0, _⟩ => exact (rhs_mm2_0 _ _).trans hk
    | ⟨1, _⟩ => exact rhs_mm2_1 _ _)
  rw [el, er]

/-! ## The product mm3 at an index -/

theorem lhs_mm3_0 (i : S128x10112.Idx) (q : dot_S128x128_S128x10112_S128x10112_1_0_0_1_n_n.contr.Idx) :
    (dot_S128x128_S128x10112_S128x10112_1_0_0_1_n_n.lhsIdx i q 0).val = (i 0).val := by
  unfold DotDims.lhsIdx
  rw [dif_neg (show ¬(0 : Fin S128x128.rank) ∈ dot_S128x128_S128x10112_S128x10112_1_0_0_1_n_n.lhsBatch by decide), dif_pos (show (0 : Fin S128x128.rank) ∈ dot_S128x128_S128x10112_S128x10112_1_0_0_1_n_n.lhsNonContracting by decide)]
  rfl
theorem lhs_mm3_1 (i : S128x10112.Idx) (q : dot_S128x128_S128x10112_S128x10112_1_0_0_1_n_n.contr.Idx) :
    (dot_S128x128_S128x10112_S128x10112_1_0_0_1_n_n.lhsIdx i q 1).val = (q ⟨0, by decide⟩).val :=
  dot_S128x128_S128x10112_S128x10112_1_0_0_1_n_n.lhsIdx_val_of_single rfl i q
theorem rhs_mm3_0 (i : S128x10112.Idx) (q : dot_S128x128_S128x10112_S128x10112_1_0_0_1_n_n.contr.Idx) :
    (dot_S128x128_S128x10112_S128x10112_1_0_0_1_n_n.rhsIdx i q 0).val = (q ⟨0, by decide⟩).val :=
  dot_S128x128_S128x10112_S128x10112_1_0_0_1_n_n.rhsIdx_val_of_single rfl i q
theorem rhs_mm3_1 (i : S128x10112.Idx) (q : dot_S128x128_S128x10112_S128x10112_1_0_0_1_n_n.contr.Idx) :
    (dot_S128x128_S128x10112_S128x10112_1_0_0_1_n_n.rhsIdx i q 1).val = (i 1).val := by
  unfold DotDims.rhsIdx
  rw [dif_neg (show ¬(1 : Fin S128x10112.rank) ∈ dot_S128x128_S128x10112_S128x10112_1_0_0_1_n_n.rhsBatch by decide), dif_pos (show (1 : Fin S128x10112.rank) ∈ dot_S128x128_S128x10112_S128x10112_1_0_0_1_n_n.rhsNonContracting by decide)]
  rfl

/-- The product into the zero accumulator at (p, q): the sum over the contracted coordinate. -/
theorem mm3_apply (lhs : FVec Ideal S128x128 .bf16) (rhs : FVec Ideal S128x10112 .bf16) (p : Fin 128) (q : Fin 10112) :
    (matmul (F := Ideal) dot_S128x128_S128x10112_S128x10112_1_0_0_1_n_n none lhs rhs (constant (F := Ideal) S128x10112 .f32 0x00000000#32) : S128x10112.Idx → EReal) (ix2 p q)
      = ∑ k : Fin 128, (lhs : S128x128.Idx → EReal) (ix2 p k) * (rhs : S128x10112.Idx → EReal) (ix2 k q) := by
  refine (Ideal.matmul_constant_zero_apply dot_S128x128_S128x10112_S128x10112_1_0_0_1_n_n none lhs rhs (ix2 p q)).trans ?_
  rw [← Equiv.sum_comp (contrEquiv1 dot_S128x128_S128x10112_S128x10112_1_0_0_1_n_n 128 rfl rfl).symm]
  refine Finset.sum_congr rfl fun k _ => ?_
  have hk := contrEquiv1_symm_val dot_S128x128_S128x10112_S128x10112_1_0_0_1_n_n 128 rfl rfl k
  have el : dot_S128x128_S128x10112_S128x10112_1_0_0_1_n_n.lhsIdx (ix2 p q) ((contrEquiv1 dot_S128x128_S128x10112_S128x10112_1_0_0_1_n_n 128 rfl rfl).symm k) = ix2 p k := funext fun a => Fin.ext (by
    match a with
    | ⟨0, _⟩ => exact lhs_mm3_0 _ _
    | ⟨1, _⟩ => exact (lhs_mm3_1 _ _).trans hk)
  have er : dot_S128x128_S128x10112_S128x10112_1_0_0_1_n_n.rhsIdx (ix2 p q) ((contrEquiv1 dot_S128x128_S128x10112_S128x10112_1_0_0_1_n_n 128 rfl rfl).symm k) = ix2 k q := funext fun a => Fin.ext (by
    match a with
    | ⟨0, _⟩ => exact (rhs_mm3_0 _ _).trans hk
    | ⟨1, _⟩ => exact rhs_mm3_1 _ _)
  rw [el, er]

/-! ## The two masks -/

/-- The gather mask: at (k, e), one where row number k, as a word, is lane e's source word. -/
def gatherMask (v3 : Vec Ideal S256 .i32) : FVec Ideal S10112x256 .bf16 :=
  have v5 : IVec S10112x1 32 := iota .tc S10112x1 32 [0] iota_S10112x1_d0_w32
  have v6 : IVec S1x256 32 := shapeCast S1x256 v3 shapeCasts_S256_S1x256
  have v7 : IVec S10112x256 32 := broadcastTo S10112x256 v5 broadcasts_S10112x1_S10112x256
  have v8 : IVec S10112x256 32 := broadcastTo S10112x256 v6 broadcasts_S1x256_S10112x256
  have v9 : IVec S10112x256 1 := cmpi .eq v7 v8
  have v10 : IVec S10112x256 32 := extui 32 v9 natLt_1_32
  have v11 : FVec Ideal S10112x256 .f32 := sitofp .f32 v10
  truncf .bf16 v11 bitsLt_bf16_f32

/-- The scatter mask: at (e, n), one where lane e's destination word is column number n, as a word. -/
def scatterMask (v4 : Vec Ideal S256 .i32) : FVec Ideal S256x10112 .bf16 :=
  have v17 : IVec S1x10112 32 := iota .tc S1x10112 32 [1] iota_S1x10112_d1_w32
  have v18 : IVec S256x1 32 := shapeCast S256x1 v4 shapeCasts_S256_S256x1
  have v19 : IVec S256x10112 32 := broadcastTo S256x10112 v18 broadcasts_S256x1_S256x10112
  have v20 : IVec S256x10112 32 := broadcastTo S256x10112 v17 broadcasts_S1x10112_S256x10112
  have v21 : IVec S256x10112 1 := cmpi .eq v19 v20
  have v22 : IVec S256x10112 32 := extui 32 v21 natLt_1_32
  have v23 : FVec Ideal S256x10112 .f32 := sitofp .f32 v22
  truncf .bf16 v23 bitsLt_bf16_f32

theorem gatherMask_apply (v3 : Vec Ideal S256 .i32) (k : Fin 10112) (e : Fin 256) :
    (gatherMask v3 : S10112x256.Idx → EReal) (ix2 k e)
      = if BitVec.ofNat 32 k.val = (v3 : S256.Idx → BitVec 32) (ix1 e) then 1 else 0 := by
  have ha : broadcastTo S10112x256 (iota .tc S10112x1 32 [0] iota_S10112x1_d0_w32 : IVec S10112x1 32)
      broadcasts_S10112x1_S10112x256 (ix2 k e) = BitVec.ofNat 32 k.val := by
    refine (broadcastTo_apply _ _ (ix2 k e) (ix2 k (0 : Fin 1)) (fun a => ?_)).trans ?_
    · match a with
      | ⟨0, _⟩ => show k.val = if (10112 : Nat) = 1 then 0 else k.val; rw [if_neg (by decide)]
      | ⟨1, _⟩ => show 0 = if (1 : Nat) = 1 then 0 else e.val; rw [if_pos rfl]
    · exact iota_single_apply .tc S10112x1 32 0 iota_S10112x1_d0_w32 (ix2 k (0 : Fin 1))
  have hb : broadcastTo S10112x256 (shapeCast S1x256 (v3 : S256.Idx → BitVec 32) shapeCasts_S256_S1x256 : IVec S1x256 32)
      broadcasts_S1x256_S10112x256 (ix2 k e) = (v3 : S256.Idx → BitVec 32) (ix1 e) := by
    refine (broadcastTo_apply _ _ (ix2 k e) (ix2 (0 : Fin 1) e) (fun a => ?_)).trans ?_
    · match a with
      | ⟨0, _⟩ => show 0 = if (1 : Nat) = 1 then 0 else k.val; rw [if_pos rfl]
      | ⟨1, _⟩ => show e.val = if (256 : Nat) = 1 then 0 else e.val; rw [if_neg (by decide)]
    · refine shapeCast_apply _ _ (ix2 (0 : Fin 1) e) (ix1 e) ?_
      rw [Shape.rowMajor_val_one, Shape.rowMajor_val_two]
      show e.val = 0 * 256 + e.val
      omega
  unfold gatherMask
  refine (ind_apply _ _).trans ?_
  rw [ha, hb]

theorem scatterMask_apply (v4 : Vec Ideal S256 .i32) (e : Fin 256) (n : Fin 10112) :
    (scatterMask v4 : S256x10112.Idx → EReal) (ix2 e n)
      = if (v4 : S256.Idx → BitVec 32) (ix1 e) = BitVec.ofNat 32 n.val then 1 else 0 := by
  have ha : broadcastTo S256x10112 (shapeCast S256x1 (v4 : S256.Idx → BitVec 32) shapeCasts_S256_S256x1 : IVec S256x1 32)
      broadcasts_S256x1_S256x10112 (ix2 e n) = (v4 : S256.Idx → BitVec 32) (ix1 e) := by
    refine (broadcastTo_apply _ _ (ix2 e n) (ix2 e (0 : Fin 1)) (fun a => ?_)).trans ?_
    · match a with
      | ⟨0, _⟩ => show e.val = if (256 : Nat) = 1 then 0 else e.val; rw [if_neg (by decide)]
      | ⟨1, _⟩ => show 0 = if (1 : Nat) = 1 then 0 else n.val; rw [if_pos rfl]
    · refine shapeCast_apply _ _ (ix2 e (0 : Fin 1)) (ix1 e) ?_
      rw [Shape.rowMajor_val_one, Shape.rowMajor_val_two]
      show e.val = e.val * 1 + 0
      omega
  have hb : broadcastTo S256x10112 (iota .tc S1x10112 32 [1] iota_S1x10112_d1_w32 : IVec S1x10112 32)
      broadcasts_S1x10112_S256x10112 (ix2 e n) = BitVec.ofNat 32 n.val := by
    refine (broadcastTo_apply _ _ (ix2 e n) (ix2 (0 : Fin 1) n) (fun a => ?_)).trans ?_
    · match a with
      | ⟨0, _⟩ => show 0 = if (1 : Nat) = 1 then 0 else e.val; rw [if_pos rfl]
      | ⟨1, _⟩ => show n.val = if (10112 : Nat) = 1 then 0 else n.val; rw [if_neg (by decide)]
    · exact iota_single_apply .tc S1x10112 32 1 iota_S1x10112_d1_w32 (ix2 (0 : Fin 1) n)
  unfold scatterMask
  refine (ind_apply _ _).trans ?_
  rw [ha, hb]

/-- The accumulate step's value as one term over the two masks. -/
theorem pay2_eq (v3 v4 : Vec Ideal S256 .i32) (v13 : Vec Ideal S128x10112 .bf16) (v26 : Vec Ideal S128x10112 .f32) :
    k0_pay2 (F := Ideal) v3 v4 v13 v26
      = shapeCast S128x10112 (addf (F := Ideal) v26 (matmul (F := Ideal) dot_S128x256_S256x10112_S128x10112_1_0_0_1_n_n none
          (truncf (F := Ideal) .bf16 (matmul (F := Ideal) dot_S128x10112_S10112x256_S128x256_1_0_0_1_n_n none
            (shapeCast S128x10112 v13 shapeCasts_S128x10112_S128x10112 : FVec Ideal S128x10112 .bf16) (gatherMask v3)
            (constant (F := Ideal) S128x256 .f32 0x00000000#32)) bitsLt_bf16_f32)
          (scatterMask v4) (constant (F := Ideal) S128x10112 .f32 0x00000000#32))) shapeCasts_S128x10112_S128x10112 := rfl

/-! ## The three stored values -/

/-- The reset value is zero everywhere. -/
theorem pay1_apply (j : S128x10112.Idx) : (k0_pay1 (F := Ideal) : S128x10112.Idx → EReal) j = 0 := by
  unfold k0_pay1
  show shapeCast S128x10112 (broadcast S128x10112 (Scalar.ofBits (F := Ideal) .f32 0x00000000#32)) _ j = 0
  rw [shapeCast_self]
  exact Ideal.ofBits_zero_f32

/-- The gathered block at (d, e): the table's entry (d, lane e's source word), zero when that word, read unsigned, is
    not below 10112. -/
theorem gathered_apply (v3 : Vec Ideal S256 .i32) (v13 : Vec Ideal S128x10112 .bf16) (d : Fin 128) (e : Fin 256) :
    (matmul (F := Ideal) (φ₁ := .bf16) dot_S128x10112_S10112x256_S128x256_1_0_0_1_n_n none v13 (gatherMask v3)
        (constant (F := Ideal) S128x256 .f32 0x00000000#32) : S128x256.Idx → EReal) (ix2 d e)
      = if h : ((v3 : S256.Idx → BitVec 32) (ix1 e)).toNat < 10112 then
          (v13 : S128x10112.Idx → EReal) (ix2 d ⟨((v3 : S256.Idx → BitVec 32) (ix1 e)).toNat, h⟩) else 0 := by
  refine (mm1_apply v13 (gatherMask v3) d e).trans ?_
  refine Eq.trans (Finset.sum_congr rfl fun k _ =>
    congrArg (fun t => (v13 : S128x10112.Idx → EReal) (ix2 d k) * t) (gatherMask_apply v3 k e)) ?_
  exact sum_onehot_gather (by norm_num) (fun k => (v13 : S128x10112.Idx → EReal) (ix2 d k)) ((v3 : S256.Idx → BitVec 32) (ix1 e))

/-- The accumulate step at (d, n): the old accumulator plus, over the 256 lanes whose destination word is n, the table's
    entry (d, source word) — zero when the source word, read unsigned, is not below 10112. -/
theorem pay2_apply (v3 v4 : Vec Ideal S256 .i32) (v13 : Vec Ideal S128x10112 .bf16) (v26 : Vec Ideal S128x10112 .f32)
    (d : Fin 128) (n : Fin 10112) :
    (k0_pay2 (F := Ideal) v3 v4 v13 v26 : S128x10112.Idx → EReal) (ix2 d n)
      = (v26 : S128x10112.Idx → EReal) (ix2 d n) + ∑ e : Fin 256,
          if (v4 : S256.Idx → BitVec 32) (ix1 e) = BitVec.ofNat 32 n.val then
            (if h : ((v3 : S256.Idx → BitVec 32) (ix1 e)).toNat < 10112 then
              (v13 : S128x10112.Idx → EReal) (ix2 d ⟨((v3 : S256.Idx → BitVec 32) (ix1 e)).toNat, h⟩) else 0)
          else 0 := by
  rw [pay2_eq, shapeCast_self, shapeCast_self]
  refine congrArg (fun t => (v26 : S128x10112.Idx → EReal) (ix2 d n) + t) ?_
  refine (mm2_apply _ (scatterMask v4) d n).trans ?_
  refine Eq.trans (Finset.sum_congr rfl fun e _ =>
    congrArg₂ (fun s t : EReal => s * t) (gathered_apply v3 v13 d e) (scatterMask_apply v4 e n)) ?_
  exact sum_onehot_scatter _ (fun e => (v4 : S256.Idx → BitVec 32) (ix1 e)) (BitVec.ofNat 32 n.val)

/-- The projection at (0, o, n): row o of the transposed weights against column n of the accumulator. -/
theorem pay3_apply (v34 : Vec Ideal S128x128 .bf16) (v36 : Vec Ideal S128x10112 .f32) (o : Fin 128) (n : Fin 10112) :
    (k0_pay3 (F := Ideal) v34 v36 : S1x128x10112.Idx → EReal) (ix3 (0 : Fin 1) o n)
      = ∑ d : Fin 128, (v34 : S128x128.Idx → EReal) (ix2 o d) * (v36 : S128x10112.Idx → EReal) (ix2 d n) := by
  unfold k0_pay3
  show shapeCast S1x128x10112 (matmul (F := Ideal) dot_S128x128_S128x10112_S128x10112_1_0_0_1_n_n none
      (shapeCast S128x128 v34 shapeCasts_S128x128_S128x128 : FVec Ideal S128x128 .bf16)
      (truncf (F := Ideal) .bf16 v36 bitsLt_bf16_f32) (constant (F := Ideal) S128x10112 .f32 0x00000000#32))
    shapeCasts_S128x10112_S1x128x10112 (ix3 (0 : Fin 1) o n) = _
  rw [shapeCast_self]
  refine (shapeCast_apply _ _ (ix3 (0 : Fin 1) o n) (ix2 o n) ?_).trans ?_
  · rw [Shape.rowMajor_val_two, Shape.rowMajor_val_three]
    show o.val * 10112 + n.val = (0 * 128 + o.val) * 10112 + n.val
    omega
  · exact mm3_apply v34 (truncf (F := Ideal) .bf16 v36 bitsLt_bf16_f32) o n

end Cert.KernelIdeal.Payload

end
-- ==== Proof.HostHead.lean ====
/-
  What the region finds: the padded, transposed feature table and the transposed weights that the host lines before the
  region make, and each window's block at a grid point read off its array.
-/
import proofs.«428069_j1194000908631_3_alg».proof.Proof.KArgs
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.KernelIdeal.HostHead

open Cert.KernelIdeal Cert.KernelIdeal.Gen Cert.KernelIdeal.KArgs Idealize.ShloMosaic Idealize.ShloMosaic.TcCoe Idealize.SL.Sem
open Idealize.ShloMosaic.ValueIdx

variable (m : (ℓ : Loc nD τ sig) → Buf (Elt Ideal) ℓ)

/-! ## The host lines before the region -/

/-- The table as the host lines compute it: the features padded with the converted integer zero by 112 rows at the
    high end of axis 0, transposed, and narrowed (the identity on ideal values). -/
theorem table_eq (c : Dev nD) :
    (table m c : S128x10112.Idx → EReal) =
      truncf .bf16 (transpose S128x10112 [1, 0]
        (pad S10112x128 ![0, 0] ![112, 0] ![0, 0] (feat m c) (sitofp .f32 (constantI S_ 32 0#32) : FVec Ideal S_ .f32)
          pads_S10000x128_S10112x128_01120_000 h_S_)
        transposes_S10112x128_S128x10112_1_0) bitsLt_bf16_f32 := by
  dsimp only [table, feat, Gen.V, Gen.V0]
  simp only [Gen.hostOps0, Gen.hostOps0_1, Gen.hostOps0_2, List.flatten_cons, List.flatten_nil, List.append_nil,
    List.cons_append, List.nil_append]
  after_results
  rfl

/-- The staged weights as the host lines compute them: the weights transposed and narrowed. -/
theorem wtsT_eq (c : Dev nD) :
    (wtsT m c : S128x128.Idx → EReal) =
      truncf .bf16 (transpose S128x128 [1, 0] (wts m c) transposes_S128x128_S128x128_1_0 : FVec Ideal S128x128 .f32)
        bitsLt_bf16_f32 := by
  dsimp only [wtsT, wts, Gen.V, Gen.V0]
  simp only [Gen.hostOps0, Gen.hostOps0_1, Gen.hostOps0_2, List.flatten_cons, List.flatten_nil, List.append_nil,
    List.cons_append, List.nil_append]
  after_results

/-- The table the region stages: entry (d, n) is feature (n, d) for n below 10000, and 0 on the padded columns. -/
theorem table_apply (c : Dev nD) (d : Fin 128) (n : Fin 10112) :
    table m c (ix2 d n) = if h : n.val < 10000 then feat m c (ix2 ⟨n.val, h⟩ d) else 0 := by
  rw [table_eq, truncf_apply, transpose_ix2_apply]
  by_cases h : n.val < 10000
  · -- row n of the padded array lies inside the features: no low padding, no interior padding
    rw [dif_pos h]
    exact pad_apply_of_inside _ _ _ _ _ _ _ (ix2 n d) (ix2 ⟨n.val, h⟩ d) (fun a => match a with
      | ⟨0, _⟩ => by show n.val = 0 + n.val * (0 + 1); omega
      | ⟨1, _⟩ => by show d.val = 0 + d.val * (0 + 1); omega)
  · -- row n is past the features' 10000 rows: the padding value, the integer zero converted
    rw [dif_neg h, pad_apply_of_not_inside _ _ _ _ _ _ _ (ix2 n d) (0 : Fin 2) (by
      show ¬(0 ≤ n.val ∧ (n.val - 0) % (0 + 1) = 0 ∧ (n.val - 0) / (0 + 1) < 10000); omega)]
    exact sitofp_zero (φ := .f32)

/-- The weights the region stages are the transposed weights. -/
theorem weights_apply (c : Dev nD) (o d : Fin 128) : wtsT m c (ix2 o d) = wts m c (ix2 d o) := by
  rw [wtsT_eq, truncf_apply, transpose_ix2_apply]

/-! ## The windows' blocks -/

/-- Window 0's block index at point t is t: with t = 1250·a + b at coordinates (a, b), a·1250 + b does not wrap at
    32 bits. Decided over the 2500 points. -/
theorem idx0 : ∀ t : Fin cfg0.N, win0_0.index t (0 : Fin 1) = t.val :=
  (by decide +kernel : ∀ t : Fin grid0.N, win0_0.index t (0 : Fin 1) = t.val)

/-- Window 1's block index at point t is t, likewise. -/
theorem idx1 : ∀ t : Fin cfg0.N, win0_1.index t (0 : Fin 1) = t.val :=
  (by decide +kernel : ∀ t : Fin grid0.N, win0_1.index t (0 : Fin 1) = t.val)

/-- Window 0's block at point t is the 256 source words from edge 256·t on. -/
theorem blkSrc_apply (c : Dev nD) (t : Fin cfg0.N) (e : Fin 256) :
    blkSrc m c t (ix1 e)
      = srcW m c (ix1 ⟨t.val * 256 + e.val, by have := t.isLt; have hN : cfg0.N = 2500 := N_0; have := e.isLt; omega⟩) := by
  unfold blkSrc iblk
  rw [View.read_apply]
  show V m c main_arg1 _ = m ((c.tc : Thread nD τ).loc main_arg1) _
  rw [V_main_arg1 m c]
  congr 1
  funext a
  apply Fin.ext
  -- the block's coordinate: index × size + 1 × (coordinate inside the block)
  match a with
  | ⟨0, _⟩ => show win0_0.index t 0 * 256 + 1 * e.val = t.val * 256 + e.val; rw [idx0]; omega

/-- Window 1's block at point t is the 256 destination words from edge 256·t on. -/
theorem blkDst_apply (c : Dev nD) (t : Fin cfg0.N) (e : Fin 256) :
    blkDst m c t (ix1 e)
      = dstW m c (ix1 ⟨t.val * 256 + e.val, by have := t.isLt; have hN : cfg0.N = 2500 := N_0; have := e.isLt; omega⟩) := by
  unfold blkDst iblk
  rw [View.read_apply]
  show V m c main_arg2 _ = m ((c.tc : Thread nD τ).loc main_arg2) _
  rw [V_main_arg2 m c]
  congr 1
  funext a
  apply Fin.ext
  match a with
  | ⟨0, _⟩ => show win0_1.index t 0 * 256 + 1 * e.val = t.val * 256 + e.val; rw [idx1]; omega

/-- Window 2's block is the whole table at every point. -/
theorem blkTable_eq (c : Dev nD) (t : Fin cfg0.N) : blkTable m c t = table m c := by
  funext j
  unfold blkTable iblk
  rw [View.read_apply]
  show V m c main_v2 _ = V m c main_v2 j
  congr 1
  funext a
  apply Fin.ext
  -- block index (0, 0), the block's sizes the array's
  match a with
  | ⟨0, _⟩ => show 0 * 128 + 1 * (j 0).val = (j 0).val; omega
  | ⟨1, _⟩ => show 0 * 10112 + 1 * (j 1).val = (j 1).val; omega

/-- Window 3's block is the whole transposed weight matrix at every point. -/
theorem blkWts_eq (c : Dev nD) (t : Fin cfg0.N) : blkWts m c t = wtsT m c := by
  funext j
  unfold blkWts iblk
  rw [View.read_apply]
  show V m c main_v4 _ = V m c main_v4 j
  congr 1
  funext a
  apply Fin.ext
  match a with
  | ⟨0, _⟩ => show 0 * 128 + 1 * (j 0).val = (j 0).val; omega
  | ⟨1, _⟩ => show 0 * 128 + 1 * (j 1).val = (j 1).val; omega

end Cert.KernelIdeal.HostHead

end
-- ==== Proof.Accum.lean ====
/-
  The accumulator after every step, and the output's buffer after the last step of a half.

  Point t of the grid is step t mod 1250 of half t div 1250, and its lanes are the edges 256·t … 256·t + 255. By
  induction on the point, the accumulator after point t holds the sum of the contributions of the half's steps up to
  and including t; so after the half's last step it holds the half's whole sum, and the output's buffer its image under
  the linear layer.
-/
import proofs.«428069_j1194000908631_3_alg».proof.Proof.KArgs
import proofs.«428069_j1194000908631_3_alg».proof.Proof.Pieces
import proofs.«428069_j1194000908631_3_alg».proof.Proof.Payload
import proofs.«428069_j1194000908631_3_alg».proof.Proof.HostHead
import proofs.«428069_j1194000908631_3_alg».proof.Proof.SpecDefs

noncomputable section

open scoped BigOperators

namespace Cert.KernelIdeal.Accum

open Cert.KernelIdeal Cert.KernelIdeal.Gen Cert.KernelIdeal.KArgs Idealize.ShloMosaic Idealize.ShloMosaic.TcCoe Idealize.SL.Sem
open Idealize.ShloMosaic.ValueIdx

variable (m : (ℓ : Loc nD τ sig) → Buf (Elt Ideal) ℓ)

/-- The arguments by coordinates, as the specification takes them. -/
abbrev sFeat (c : Dev nD) : Fin 10000 → Fin 128 → EReal := Cert.Spec.mat (feat m c)
abbrev sSrc (c : Dev nD) : Fin 640000 → BitVec 32 := Cert.Spec.vec (srcW m c)
abbrev sDst (c : Dev nD) : Fin 640000 → BitVec 32 := Cert.Spec.vec (dstW m c)
abbrev sW (c : Dev nD) : Fin 128 → Fin 128 → EReal := Cert.Spec.mat (wts m c)
abbrev sBias (c : Dev nD) : Fin 128 → EReal := Cert.Spec.vec (bias m c)

theorem lt_N (n : ℕ) (h : n < cfg0.N) : n < 2500 := lt_of_lt_of_eq h (show cfg0.N = 2500 from N_0)

/-- The half and the step of a point. -/
def halfOf (n : ℕ) (h : n < 2500) : Fin 2 := ⟨n / 1250, by omega⟩
def stepOf (n : ℕ) : Fin 1250 := ⟨n % 1250, Nat.mod_lt _ (by norm_num)⟩

/-- A row of the padded table, taken by a source word, is the specification's row. -/
theorem row_of_table (c : Dev nD) (s : BitVec 32) (d : Fin 128) :
    (if h : s.toNat < 10112 then table m c (ix2 d ⟨s.toNat, h⟩) else 0) = Cert.Spec.row (sFeat m c) s d := by
  unfold Cert.Spec.row
  by_cases h1 : s.toNat < 10000
  · rw [dif_pos (by omega : s.toNat < 10112), HostHead.table_apply, dif_pos h1, dif_pos h1]
    rfl
  · by_cases h2 : s.toNat < 10112
    · rw [dif_pos h2, HostHead.table_apply, dif_neg h1, dif_neg h1]
    · rw [dif_neg h2, dif_neg h1]

/-- The lanes of point t are the edges of step t mod 1250 of half t div 1250. -/
theorem edge_of_point (n : ℕ) (h : n < 2500) (e : Fin 256) :
    Cert.Spec.edge (halfOf n h) (stepOf n) e = ⟨n * 256 + e.val, by have := e.isLt; omega⟩ := by
  apply Fin.ext
  show (n / 1250 * 1250 + n % 1250) * 256 + e.val = n * 256 + e.val
  omega

/-- What the body adds at point t is the specification's contribution of that step. -/
theorem step_term (c : Dev nD) (t : Fin cfg0.N) (d : Fin 128) (k : Fin 10112) :
    (∑ e : Fin 256, if blkDst m c t (ix1 e) = BitVec.ofNat 32 k.val then
        (if h : (blkSrc m c t (ix1 e)).toNat < 10112 then blkTable m c t (ix2 d ⟨(blkSrc m c t (ix1 e)).toNat, h⟩) else 0)
      else 0)
      = Cert.Spec.contrib (sFeat m c) (sSrc m c) (sDst m c) (halfOf t.val (lt_N t.val t.isLt)) (stepOf t.val) d k := by
  unfold Cert.Spec.contrib
  refine Finset.sum_congr rfl fun e _ => ?_
  rw [edge_of_point t.val (lt_N t.val t.isLt) e, HostHead.blkDst_apply, HostHead.blkSrc_apply, HostHead.blkTable_eq, row_of_table]
  rfl

/-- The spec's contribution of point t. -/
abbrev contribAt (c : Dev nD) (t : Fin cfg0.N) (d : Fin 128) (k : Fin 10112) : EReal :=
  Cert.Spec.contrib (sFeat m c) (sSrc m c) (sDst m c) (halfOf t.val (lt_N t.val t.isLt)) (stepOf t.val) d k

/-- What the point before t left in the accumulator. -/
abbrev accBefore (c : Dev nD) (t : Fin cfg0.N) : S128x10112.Idx → EReal :=
  (outsAt0 m c (t.val - 1) (Nat.lt_of_le_of_lt (Nat.sub_le _ _) t.isLt)).2

/-- A half's first step leaves zero plus its contribution. -/
theorem acc_at_A (c : Dev nD) (t : Fin cfg0.N) (h0 : t.val % 1250 = 0) (h1 : ¬t.val % 1250 = 1249) (d : Fin 128) (k : Fin 10112) :
    accAt m c t (ix2 d k) = 0 + contribAt m c t d k := by
  show (outsAt0 m c t.val t.isLt).2 (ix2 d k) = _
  rw [outsAt0_A m c t h0 h1]
  dsimp only
  refine (congrFun (Pieces.acc_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 d k)).trans ?_
  refine (Payload.pay2_apply (blkSrc m c t) (blkDst m c t) (blkTable m c t) (k0_pay1 (F := Ideal)) d k).trans ?_
  rw [Payload.pay1_apply, step_term]

/-- A middle step adds its contribution to what the step before left. -/
theorem acc_at_B (c : Dev nD) (t : Fin cfg0.N) (h0 : ¬t.val % 1250 = 0) (h1 : ¬t.val % 1250 = 1249) (d : Fin 128) (k : Fin 10112) :
    accAt m c t (ix2 d k) = accBefore m c t (ix2 d k) + contribAt m c t d k := by
  show (outsAt0 m c t.val t.isLt).2 (ix2 d k) = _
  rw [outsAt0_B m c t h0 h1]
  dsimp only
  refine (congrFun (Pieces.acc_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (accBefore m c t)) (ix2 d k)).trans ?_
  refine (Payload.pay2_apply (blkSrc m c t) (blkDst m c t) (blkTable m c t) (accBefore m c t) d k).trans ?_
  rw [step_term]

/-- So does a half's last step. -/
theorem acc_at_C (c : Dev nD) (t : Fin cfg0.N) (h0 : ¬t.val % 1250 = 0) (h1 : t.val % 1250 = 1249) (d : Fin 128) (k : Fin 10112) :
    accAt m c t (ix2 d k) = accBefore m c t (ix2 d k) + contribAt m c t d k := by
  show (outsAt0 m c t.val t.isLt).2 (ix2 d k) = _
  rw [outsAt0_C m c t h0 h1]
  dsimp only
  refine (congrFun (Pieces.acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accBefore m c t)) (ix2 d k)).trans ?_
  refine (Payload.pay2_apply (blkSrc m c t) (blkDst m c t) (blkTable m c t) (accBefore m c t) d k).trans ?_
  rw [step_term]

/-- THE ACCUMULATOR after point n: the half's contributions up to and including step n mod 1250. -/
theorem acc_inv (c : Dev nD) : ∀ (n : ℕ) (h : n < cfg0.N) (d : Fin 128) (k : Fin 10112),
    accAt m c ⟨n, h⟩ (ix2 d k)
      = Cert.Spec.acc (sFeat m c) (sSrc m c) (sDst m c) (halfOf n (lt_N n h)) (n % 1250 + 1) d k := by
  intro n
  induction n with
  | zero =>
    intro h d k
    rw [acc_at_A m c ⟨0, h⟩ rfl (by show ¬(0 % 1250 = 1249); decide) d k]
    show 0 + Cert.Spec.contrib (sFeat m c) (sSrc m c) (sDst m c) (halfOf 0 _) (stepOf 0) d k = _
    rw [show (0 % 1250 + 1) = 0 + 1 from rfl, Cert.Spec.acc_succ _ _ _ _ 0 (by norm_num), Cert.Spec.acc_zero]
    rfl
  | succ n ih =>
    intro h d k
    have hN := lt_N (n + 1) h
    have hstep : ∀ (hk : (n + 1) % 1250 < 1250), (⟨(n + 1) % 1250, hk⟩ : Fin 1250) = stepOf (n + 1) := fun _ => rfl
    by_cases h0 : (n + 1) % 1250 = 0
    · have h1 : ¬(n + 1) % 1250 = 1249 := by omega
      rw [acc_at_A m c ⟨n + 1, h⟩ h0 h1 d k]
      show 0 + Cert.Spec.contrib (sFeat m c) (sSrc m c) (sDst m c) (halfOf (n + 1) _) (stepOf (n + 1)) d k = _
      rw [Cert.Spec.acc_succ _ _ _ _ ((n + 1) % 1250) (Nat.mod_lt _ (by norm_num)), hstep]
      have hz : Cert.Spec.acc (sFeat m c) (sSrc m c) (sDst m c) (halfOf (n + 1) hN) ((n + 1) % 1250) d k = 0 := by
        rw [h0]; exact Cert.Spec.acc_zero _ _ _ _ _ _
      rw [hz]
    · have hprev : accBefore m c ⟨n + 1, h⟩ (ix2 d k)
          = Cert.Spec.acc (sFeat m c) (sSrc m c) (sDst m c) (halfOf (n + 1) hN) ((n + 1) % 1250) d k := by
        show (outsAt0 m c n _).2 (ix2 d k) = _
        have e := ih (Nat.lt_of_succ_lt h) d k
        have hh : halfOf n (lt_N n (Nat.lt_of_succ_lt h)) = halfOf (n + 1) hN := Fin.ext (by show n / 1250 = (n + 1) / 1250; omega)
        have hs : n % 1250 + 1 = (n + 1) % 1250 := by omega
        rw [hh, hs] at e
        exact e
      have hcomb : accAt m c ⟨n + 1, h⟩ (ix2 d k) = accBefore m c ⟨n + 1, h⟩ (ix2 d k) + contribAt m c ⟨n + 1, h⟩ d k := by
        by_cases h1 : (n + 1) % 1250 = 1249
        · exact acc_at_C m c ⟨n + 1, h⟩ h0 h1 d k
        · exact acc_at_B m c ⟨n + 1, h⟩ h0 h1 d k
      rw [hcomb, hprev, Cert.Spec.acc_succ _ _ _ _ ((n + 1) % 1250) (Nat.mod_lt _ (by norm_num)), hstep]

/-- THE OUTPUT'S BUFFER after a half's last step: the half's whole sum through the linear layer. -/
theorem out_at_C (c : Dev nD) (t : Fin cfg0.N) (h1 : t.val % 1250 = 1249) (o : Fin 128) (k : Fin 10112) :
    outAt m c t (ix3 (0 : Fin 1) o k)
      = Cert.Spec.proj (sFeat m c) (sSrc m c) (sDst m c) (sW m c) (halfOf t.val (lt_N t.val t.isLt)) o k := by
  have h0 : ¬t.val % 1250 = 0 := by omega
  show (outsAt0 m c t.val t.isLt).1 (ix3 (0 : Fin 1) o k) = _
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (accBefore m c t)) (ix3 (0 : Fin 1) o k)).trans ?_
  refine (Payload.pay3_apply (blkWts m c t) (k0_pay2 (F := Ideal) (blkSrc m c t) (blkDst m c t) (blkTable m c t) (accBefore m c t)) o k).trans ?_
  unfold Cert.Spec.proj
  refine Finset.sum_congr rfl fun d _ => ?_
  have hw : blkWts m c t (ix2 o d) = sW m c d o := by
    rw [HostHead.blkWts_eq, HostHead.weights_apply]; rfl
  have ha : (k0_pay2 (F := Ideal) (blkSrc m c t) (blkDst m c t) (blkTable m c t) (accBefore m c t) : S128x10112.Idx → EReal) (ix2 d k)
      = Cert.Spec.acc (sFeat m c) (sSrc m c) (sDst m c) (halfOf t.val (lt_N t.val t.isLt)) 1250 d k := by
    refine (Payload.pay2_apply (blkSrc m c t) (blkDst m c t) (blkTable m c t) (accBefore m c t) d k).trans ?_
    rw [step_term, ← acc_at_C m c t h0 h1 d k]
    have e := acc_inv m c t.val t.isLt d k
    rw [h1] at e
    exact e
  rw [hw, ha]

end Cert.KernelIdeal.Accum

end
-- ==== Proof.HostTail.lean ====
/-
  The host lines after the region: the two halves' slabs of the region's result added, transposed, the bias added, the
  padded rows cut off.
-/
import proofs.«428069_j1194000908631_3_alg».proof.Proof.KArgs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostTail

open Cert.KernelIdeal Cert.KernelIdeal.Gen Cert.KernelIdeal.KArgs Idealize.ShloMosaic Idealize.ShloMosaic.TcCoe Idealize.SL.Sem
open Idealize.ShloMosaic.ValueIdx

variable (m : (ℓ : Loc nD τ sig) → Buf (Elt Ideal) ℓ)

section Reads
variable {α : Type}

/-- Cutting the padded rows off: row n of the first 10000 rows is row n. -/
theorem sliceRows_apply (x : S10112x128.Idx → α) (n : Fin 10000) (o : Fin 128) :
    extractStridedSlice S10000x128 ![0, 0] x slices_S10112x128_S10000x128_0_0 (ix2 n o)
      = x (ix2 (n.castLE (by omega)) o) :=
  extractStridedSlice_apply _ x _ _ _ fun a => match a with
    | ⟨0, _⟩ => by show n.val = 0 + n.val; omega
    | ⟨1, _⟩ => by show o.val = 0 + o.val; omega

/-- The transpose at (p, q) is the operand at (q, p). -/
theorem transpose_apply' (x : S128x10112.Idx → α) (p : Fin 10112) (q : Fin 128) :
    transpose S10112x128 [1, 0] x transposes_S128x10112_S10112x128_1_0 (ix2 p q) = x (ix2 q p) :=
  transpose_apply _ x _ _ _ fun b => match b with
    | ⟨0, _⟩ => rfl
    | ⟨1, _⟩ => rfl

/-- Half h of the result array, its unit axis dropped, at (q, p) is the array at (h, q, p). -/
theorem half_apply (x : S2x128x10112.Idx → α) (h : Fin 2) (hs : S2x128x10112.Slices ![h.val, 0, 0] S1x128x10112)
    (q : Fin 128) (p : Fin 10112) :
    shapeCast S128x10112 (extractStridedSlice S1x128x10112 ![h.val, 0, 0] x hs) shapeCasts_S1x128x10112_S128x10112 (ix2 q p)
      = x (ix3 h q p) := by
  refine (shapeCast_dropUnit_apply ![128, 10112] _ _ _).trans ?_
  refine extractStridedSlice_apply _ x _ _ _ fun a => match a with
    | ⟨0, _⟩ => by show h.val = h.val + 0; omega
    | ⟨1, _⟩ => by show q.val = 0 + q.val; omega
    | ⟨2, _⟩ => by show p.val = 0 + p.val; omega

/-- The bias as one row, broadcast down the rows, at (p, q) is the bias at q. -/
theorem biasRows_apply (x : S128.Idx → α) (p : Fin 10112) (q : Fin 128) :
    broadcastInDim S10112x128 ![0, 1] bcast_S1x128_S10112x128_0_1 (shapeCast S1x128 x shapeCasts_S128_S1x128) (ix2 p q)
      = x (ix1 q) := by
  refine (broadcastInDim_apply _ _ _ _ (ix2 (0 : Fin 1) q) fun a => match a with
    | ⟨0, _⟩ => rfl
    | ⟨1, _⟩ => rfl).trans ?_
  refine (shapeCast_addUnit_apply ![128] x _ _).trans ?_
  congr 1
  funext d
  match d with
  | ⟨0, _⟩ => rfl

/-- The first half's slab, its unit axis dropped, at (q, p) is the array at (0, q, p). -/
theorem half0_apply (x : S2x128x10112.Idx → α) (q : Fin 128) (p : Fin 10112) :
    shapeCast S128x10112 (extractStridedSlice S1x128x10112 ![0, 0, 0] x slices_S2x128x10112_S1x128x10112_0_0_0)
        shapeCasts_S1x128x10112_S128x10112 (ix2 q p)
      = x (ix3 (0 : Fin 2) q p) :=
  half_apply x 0 slices_S2x128x10112_S1x128x10112_0_0_0 q p

/-- The second half's slab, its unit axis dropped, at (q, p) is the array at (1, q, p). -/
theorem half1_apply (x : S2x128x10112.Idx → α) (q : Fin 128) (p : Fin 10112) :
    shapeCast S128x10112 (extractStridedSlice S1x128x10112 ![1, 0, 0] x slices_S2x128x10112_S1x128x10112_1_0_0)
        shapeCasts_S1x128x10112_S128x10112 (ix2 q p)
      = x (ix3 (1 : Fin 2) q p) :=
  half_apply x 1 slices_S2x128x10112_S1x128x10112_1_0_0 q p

end Reads

/-- The region's result array is what the lines after the region find at the result window's array. -/
theorem read_v5 (c : Dev nD) :
    Pipeline.withArrays (cfgs 0).spec c (V0 m c) (fun w => (dats m 0 c).arrAt w (cfgs 0).N) (Proc.devRef .tc main_v5) = outArr m c :=
  Pipeline.withArrays_arr spec0 launch0.win.arr_inj c _ _ 4

/-- The bias is no window's array and no earlier line writes it: the lines after the region find it as launched. -/
theorem read_arg4 (c : Dev nD) :
    Pipeline.withArrays (cfgs 0).spec c (V0 m c) (fun w => (dats m 0 c).arrAt w (cfgs 0).N) (Proc.devRef .tc main_arg4) = bias m c := by
  rw [Pipeline.withArrays_of_ne _ c (V0 m c) _ main_arg4 (by exact (by decide : ∀ w, Pipeline.arrRef spec0 w ≠ main_arg4))]
  exact V_main_arg4 m c

/-- The program's result as the lines after the region compute it from the region's result array and the bias. -/
theorem result_eq (c : Dev nD) :
    result m c = extractStridedSlice S10000x128 ![0, 0]
      (addf (F := Ideal) (φ := .f32)
        (transpose S10112x128 [1, 0]
          (addf (F := Ideal) (φ := .f32)
            (shapeCast S128x10112 (extractStridedSlice S1x128x10112 ![0, 0, 0] (outArr m c) slices_S2x128x10112_S1x128x10112_0_0_0) shapeCasts_S1x128x10112_S128x10112)
            (shapeCast S128x10112 (extractStridedSlice S1x128x10112 ![1, 0, 0] (outArr m c) slices_S2x128x10112_S1x128x10112_1_0_0) shapeCasts_S1x128x10112_S128x10112))
          transposes_S128x10112_S10112x128_1_0)
        (broadcastInDim S10112x128 ![0, 1] bcast_S1x128_S10112x128_0_1 (shapeCast S1x128 (bias m c) shapeCasts_S128_S1x128)))
      slices_S10112x128_S10000x128_0_0 := by
  unfold result Pipeline.afterTail₀
  show StableHlo.after hostOps1 _ (Proc.devRef .tc main_v15) = _
  after_results
  rw [read_v5, read_arg4]
  rfl

/-- The program's result at (n, o): the region's result array at (0, o, n) plus at (1, o, n), plus bias o. -/
theorem result_apply (c : Dev nD) (n : Fin 10000) (o : Fin 128) :
    result m c (ix2 n o)
      = (outArr m c (ix3 (0 : Fin 2) o (n.castLE (by omega))) + outArr m c (ix3 (1 : Fin 2) o (n.castLE (by omega))))
        + bias m c (ix1 o) := by
  rw [result_eq, sliceRows_apply, addf_apply, transpose_apply', addf_apply, half0_apply, half1_apply, biasRows_apply]

end Cert.KernelIdeal.HostTail

end
-- ==== Proof.KernelValue.lean ====
/-
  The idealized kernel's result.

  The output window's block index is the half's number; its block is written back after the half's last step only, and
  there it holds the half's whole sum sent through the linear layer. The two blocks tile the region's result array, so the
  array is that projection, half by half; the host lines after the region add the halves and the bias.
-/
import proofs.«428069_j1194000908631_3_alg».proof.Proof.KArgs
import proofs.«428069_j1194000908631_3_alg».proof.Proof.Accum
import proofs.«428069_j1194000908631_3_alg».proof.Proof.HostTail
import proofs.«428069_j1194000908631_3_alg».proof.Proof.SpecDefs
import Idealize.ShloMosaic.Lib.Pipeline.Value

set_option maxRecDepth 16384

noncomputable section

open scoped BigOperators

namespace Cert.KernelIdeal.KernelValue

open Cert.KernelIdeal Cert.KernelIdeal.Gen Cert.KernelIdeal.KArgs Cert.KernelIdeal.Accum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The region's result array as one function: slab h is half h's sums through the linear layer. -/
def slabs (c : Dev nD) : S2x128x10112.Idx → EReal := fun j =>
  Cert.Spec.proj (sFeat m c) (sSrc m c) (sDst m c) (sW m c) (j 0) (j 1) (j 2)

/-- The output window's block index at point t: the half's number on axis 0, zero on the others. -/
theorem index_out : ∀ t : Fin cfg0.N, win0_4.index t (0 : Fin 3) = t.val / 1250 ∧ win0_4.index t (1 : Fin 3) = 0
    ∧ win0_4.index t (2 : Fin 3) = 0 :=
  (by decide +kernel : ∀ t : Fin grid0.N, _)

/-- What a write-back writes is its block of slabs. -/
theorem flushed_eq (c : Dev nD) (t : Fin cfg0.N) (hf : (cfg0.win 4).flush t = true) :
    (dats m 0 c).flushed 4 t = ((cfg0.win 4).blk t).view.read (Elt Ideal) (slabs m c) := by
  have h1 : t.val % 1250 = 1249 := (flush0_4 t).mp hf
  show (cfg0.win 4).cut (grid0.coords t) ((dats m 0 c).after 4 t) = _
  rw [after0_4]
  funext y
  show outAt m c t y = slabs m c (((cfg0.win 4).blk t).view.emb y)
  obtain ⟨o, k, rfl⟩ : ∃ (o : Fin 128) (k : Fin 10112), y = ix3 (0 : Fin 1) o k :=
    ⟨y 1, y 2, by
      funext a
      match a with
      | ⟨0, _⟩ =>
        apply Fin.ext
        have h := (y 0).isLt
        change (y 0).val < 1 at h
        show (y 0).val = 0
        omega
      | ⟨1, _⟩ => rfl
      | ⟨2, _⟩ => rfl⟩
  rw [out_at_C m c t h1 o k]
  obtain ⟨e0, e1, e2⟩ := index_out t
  unfold slabs
  have hN := lt_N t.val t.isLt
  have a0 : (((cfg0.win 4).blk t).view.emb (ix3 (0 : Fin 1) o k)) 0 = halfOf t.val hN := by
    apply Fin.ext
    show win0_4.index t (0 : Fin 3) * 1 + 1 * 0 = t.val / 1250
    omega
  have a1 : (((cfg0.win 4).blk t).view.emb (ix3 (0 : Fin 1) o k)) 1 = o := by
    apply Fin.ext
    show win0_4.index t (1 : Fin 3) * 128 + 1 * o.val = o.val
    omega
  have a2 : (((cfg0.win 4).blk t).view.emb (ix3 (0 : Fin 1) o k)) 2 = k := by
    apply Fin.ext
    show win0_4.index t (2 : Fin 3) * 10112 + 1 * k.val = k.val
    omega
  rw [a0, a1, a2]

/-- The two write-backs tile the array: slab h is written after point 1250·h + 1249. -/
theorem cover (i : S2x128x10112.Idx) :
    ∃ t : Fin cfg0.N, (cfg0.win 4).flush t = true ∧ i ∈ ((cfg0.win 4).blk t).view.set := by
  have hi0 : (i 0).val < 2 := (i 0).isLt
  have hi1 : (i 1).val < 128 := (i 1).isLt
  have hi2 : (i 2).val < 10112 := (i 2).isLt
  have hN : cfg0.N = 2500 := N_0
  let t : Fin cfg0.N := ⟨(i 0).val * 1250 + 1249, by omega⟩
  have ht : t.val = (i 0).val * 1250 + 1249 := rfl
  refine ⟨t, (flush0_4 t).mpr (by rw [ht]; omega), ?_⟩
  obtain ⟨e0, e1, e2⟩ := index_out t
  show i ∈ ((View.whole main_v5).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 128 ≤ (i 1).val ∧ (i 1).val < win0_4.index t (1 : Fin 3) * 128 + 128
    rw [e1]; omega
  | ⟨2, _⟩ =>
    show win0_4.index t (2 : Fin 3) * 10112 ≤ (i 2).val ∧ (i 2).val < win0_4.index t (2 : Fin 3) * 10112 + 10112
    rw [e2]; omega

/-- THE REGION'S RESULT ARRAY after the run. -/
theorem outArr_eq (c : Dev nD) : outArr m c = slabs m c :=
  (dats m 0 c).arrAt_eq_of_cover 4 (slabs m c) (flushed_eq m c) (cover)

/-- THE PROGRAM'S RESULT: the halves' arrangement of the specification. -/
theorem result_eq (c : Dev nD) :
    result m c = fun j => Cert.Spec.kerForm (sFeat m c) (sSrc m c) (sDst m c) (sW m c) (sBias m c) (j 0) (j 1) := by
  funext j
  obtain ⟨n, o, rfl⟩ : ∃ (n : Fin 10000) (o : Fin 128), j = ix2 n o := ⟨j 0, j 1, eq_ix2 j⟩
  rw [HostTail.result_apply, outArr_eq]
  rfl

/-- The run, read: the result holds the halves' arrangement of the arguments; the arguments are unchanged (each read off
    the frame run's post: a staged input by its window, the others through the host lines around the region). -/
theorem run : θ_run (defs (F := Ideal)) (onTc (τ := τ) (main (F := Ideal))) ⟨m, fun _ => 0, ρ⟩ fun r => ∀ c : Dev nD,
      r.2.mem ((c.tc : Thread nD τ).loc main_v15)
          = (fun j => Cert.Spec.kerForm (sFeat m c) (sSrc m c) (sDst m c) (sW m c) (sBias m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.lean ====
/-
  A graph layer: every edge carries its source node's feature row to its destination node, the rows arriving at a node
  are summed, and the sums go through a linear layer with a bias:
      out[n, o] = (∑ d, (∑ p with dst[p] = n, feature[src[p], d]) · W[d, o]) + b[o].

  The reference takes the rows with a gather, sums them with a scatter-add and multiplies once. The kernel never indexes:
  per block of 256 edges it builds a 0/1 matrix "node n is the source of edge e" and multiplies the (padded, transposed)
  feature table by it, which selects the rows; builds a 0/1 matrix "edge e arrives at node n" and multiplies again, which
  adds each selected row into its destination's column; accumulates the blocks of one half of the edges per core; sends
  each half's accumulator through the transposed weights by itself; and the host adds the two halves and the bias.

  Over the extended reals the two are one value where every feature and weight is finite and every source word names a
  row of the table. A product with a 0/1 matrix is a selection whatever the other factor; sums may be regrouped freely;
  the one law that needs finiteness is distributivity, when W · (h₀ + h₁) is split into W · h₀ + W · h₁ for the two halves'
  sums. A source word outside [0, 10000) is where the two would part: the reference's gather clamps it to a row, the
  kernel's comparison matches no row (or a zero row of the padding). Destination words need no condition: a word that is
  no node number is dropped by both.

  Modules: SpecDefs (both arrangements, by coordinates), SpecLaw (they agree), RefValue (the reference's result is the
  one-sum arrangement; LibRows reads its gather and scatter-add), PreFacts (the precondition decoded), Pieces and
  Payload (what a step stores, as values), HostHead and HostTail (the host lines around the region), Accum (the
  accumulator after every step, by induction on the grid point), KernelValue (the region's result array and the
  program's result). The frames of the two kernel programs are the generated ones; the reference's is its run.
-/
import proofs.«428069_j1194000908631_3_alg».proof.Defs
import proofs.«428069_j1194000908631_3_alg».proof.Proof.Gen.Kernel
import proofs.«428069_j1194000908631_3_alg».proof.Proof.Gen.Kernel.Skeleton
import proofs.«428069_j1194000908631_3_alg».proof.Proof.Gen.Kernel.Launch
import proofs.«428069_j1194000908631_3_alg».proof.Proof.Gen.Kernel.Points
import proofs.«428069_j1194000908631_3_alg».proof.Proof.Gen.Kernel.Frame
import proofs.«428069_j1194000908631_3_alg».proof.Proof.Gen.KernelIdeal
import proofs.«428069_j1194000908631_3_alg».proof.Proof.Gen.KernelIdeal.Skeleton
import proofs.«428069_j1194000908631_3_alg».proof.Proof.Gen.KernelIdeal.Launch
import proofs.«428069_j1194000908631_3_alg».proof.Proof.Gen.KernelIdeal.Points
import proofs.«428069_j1194000908631_3_alg».proof.Proof.Gen.KernelIdeal.Frame
import proofs.«428069_j1194000908631_3_alg».proof.Proof.Gen.ReferenceIdeal
import proofs.«428069_j1194000908631_3_alg».proof.Proof.Gen.Pre_finite_inputs
import proofs.«428069_j1194000908631_3_alg».proof.Proof.Gen.ReferenceIdeal.Run
import proofs.«428069_j1194000908631_3_alg».proof.Proof.Gen.ReferenceIdeal.Read
import proofs.«428069_j1194000908631_3_alg».proof.Proof.SpecLaw
import proofs.«428069_j1194000908631_3_alg».proof.Proof.RefValue
import proofs.«428069_j1194000908631_3_alg».proof.Proof.PreFacts
import proofs.«428069_j1194000908631_3_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same result: the kernel's is the halves' arrangement of its arguments, the reference's the
    one-sum arrangement of arguments that agree with them, and under the precondition the two arrangements are equal. -/
theorem algebraic : Cert.algebraic_KernelIdeal_ReferenceIdeal := by
  intro m ρ m' ρ' hpre hagree
  refine ⟨fun c => fun j => Cert.Spec.kerForm (Cert.KernelIdeal.Accum.sFeat m c) (Cert.KernelIdeal.Accum.sSrc m c)
      (Cert.KernelIdeal.Accum.sDst m c) (Cert.KernelIdeal.Accum.sW m c) (Cert.KernelIdeal.Accum.sBias m c) (j 0) (j 1),
    Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  obtain ⟨hf, hW, hsrc⟩ := Cert.PreFacts.of_pre m hpre c
  funext j
  rw [(hagree c).1, (hagree c).2.1, (hagree c).2.2.1, (hagree c).2.2.2.1, (hagree c).2.2.2.2]
  exact (Cert.Spec.ker_eq_ref _ _ _ _ _ hf hW hsrc (j 0) (j 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
